-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S128 .f32) (main_arg7 : FVec F S128x7 .f32) (main_arg8 : FVec F S7 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x7 .f32 := Host.absf main_arg7
  let main_cst_8 : FVec F S_ .f32 := constant S_ .f32 0x7F800000#32
  let main_v25 : FVec F S128x7 .f32 := broadcastInDim S128x7 ![] bcast_S_S128x7 main_cst_8
  let main_v26 : IVec S128x7 1 := cmpf .olt main_v24 main_v25
  let main_c_9 : IVec S_ 1 := constantI S_ 1 1#1
  let main_v27 : IVec S_ 1 := (fun x v => Host.reduce IntOp.andi x v reducesTo_S128x7_S_d0_1 h_S_) main_v26 main_c_9
  let main_v28 : IVec S_ 1 := andi main_v23 main_v27
  let main_v29 : FVec F S7 .f32 := Host.absf main_arg8
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x7 .f32) (main_arg8 : FVec F S7 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x7 : Shape := ⟨2, ![128, 7]⟩
abbrev S7 : Shape := ⟨1, ![7]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x1 : Shape := ⟨2, ![50000, 1]⟩
abbrev S128x1 : Shape := ⟨2, ![128, 1]⟩
abbrev S128x2000 : Shape := ⟨2, ![128, 2000]⟩
abbrev S2000x1 : Shape := ⟨2, ![2000, 1]⟩
abbrev S1x7 : Shape := ⟨2, ![1, 7]⟩

abbrev nBuf : Space → Nat
  | .hbm => 105
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x7, .f32⟩
  | .hbm, ⟨8, _⟩ => ⟨S7, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S128, .i32⟩
  | .hbm, ⟨87, _⟩ => ⟨S50000x1, .i32⟩
  | .hbm, ⟨88, _⟩ => ⟨S1x128, .i32⟩
  | .hbm, ⟨89, _⟩ => ⟨S50000x128, .i32⟩
  | .hbm, ⟨90, _⟩ => ⟨S50000x128, .i32⟩
  | .hbm, ⟨91, _⟩ => ⟨S50000x128, .i1⟩
  | .hbm, ⟨92, _⟩ => ⟨S50000x128, .bf16⟩
  | .hbm, ⟨93, _⟩ => ⟨S1x128, .f32⟩
  | .hbm, ⟨94, _⟩ => ⟨S128x128, .f32⟩
  | .hbm, ⟨95, _⟩ => ⟨S128x1, .f32⟩
  | .hbm, ⟨96, _⟩ => ⟨S_, .f32⟩
  | .hbm, ⟨97, _⟩ => ⟨S128x1, .f32⟩
  | .hbm, ⟨98, _⟩ => ⟨S128x1, .f32⟩
  | .hbm, ⟨99, _⟩ => ⟨S128x128, .f32⟩
  | .hbm, ⟨100, _⟩ => ⟨S128x128, .f32⟩
  | .hbm, ⟨101, _⟩ => ⟨S128x7, .f32⟩
  | .hbm, ⟨102, _⟩ => ⟨S1x7, .f32⟩
  | .hbm, ⟨103, _⟩ => ⟨S128x7, .f32⟩
  | .hbm, ⟨104, _⟩ => ⟨S128x7, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .bf16⟩
  | .local _ .vmem, ⟨15, _⟩ => ⟨S2000x128, .bf16⟩
  | .local _ .vmem, ⟨16, _⟩ => ⟨S128x128, .f32⟩
  | .local _ .vmem, ⟨17, _⟩ => ⟨S128x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68_0 : Ref sig .tc := ⟨.hbm, 94, rfl⟩
abbrev main_v68_1 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  inb_S128x1_S128x1_0_0 : ∀ a, (![0, 0] : Fin 2 → Nat) a + S128x1.size a ≤ S128x1.size a
  h_S128x1 : 0 < S128x1.numel
  transposes_S2000x128_p1_0_S128x2000 : S2000x128.Transposes [1, 0] S128x2000
  shapeCasts_S128x128_S128x128 : S128x128.ShapeCasts S128x128
  shapeCasts_S128x1_S128x1 : S128x1.ShapeCasts S128x1
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S7_S1x7_1 : S7.BroadcastsInDim S1x7 (![1] : Fin 1 → Fin S1x7.rank)
  bcast_S1x7_S128x7_0_1 : S1x7.BroadcastsInDim S128x7 (![0, 1] : Fin 2 → Fin S128x7.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S128x2000_S2000x128_S128x128_1_0_0_1_n_n_wf : DotDims.WF S128x2000 S2000x128 S128x128 [1] [0] [0] [1] [] []
  dot_S128x2000_S2000x1_S128x1_1_0_0_1_n_n_wf : DotDims.WF S128x2000 S2000x1 S128x1 [1] [0] [0] [1] [] []
  dot_S128x128_S128x7_S128x7_1_0_0_1_n_n_wf : DotDims.WF S128x128 S128x7 S128x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S128x2000_S2000x128_S128x128_1_0_0_1_n_n : DotDims S128x2000 S2000x128 S128x128 where
  lhsContracting := [1]
  rhsContracting := [0]
  lhsNonContracting := [0]
  rhsNonContracting := [1]
  lhsBatch := []
  rhsBatch := []
  wf := dot_S128x2000_S2000x128_S128x128_1_0_0_1_n_n_wf
def dot_S128x2000_S2000x1_S128x1_1_0_0_1_n_n : DotDims S128x2000 S2000x1 S128x1 where
  lhsContracting := [1]
  rhsContracting := [0]
  lhsNonContracting := [0]
  rhsNonContracting := [1]
  lhsBatch := []
  rhsBatch := []
  wf := dot_S128x2000_S2000x1_S128x1_1_0_0_1_n_n_wf
def dot_S128x128_S128x7_S128x7_1_0_0_1_n_n : DotDims S128x128 S128x7 S128x7 where
  lhsContracting := [1]
  rhsContracting := [0]
  lhsNonContracting := [0]
  rhsNonContracting := [1]
  lhsBatch := []
  rhsBatch := []
  wf := dot_S128x128_S128x7_S128x7_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68_0) S128x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68_1) S128x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x7 : Shape := ⟨2, ![128, 7]⟩
abbrev S7 : Shape := ⟨1, ![7]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S128x1 : Shape := ⟨2, ![128, 1]⟩
abbrev S1x7 : Shape := ⟨2, ![1, 7]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x7, .f32⟩
  | 8 => ⟨S7, .f32⟩
  | 9 => ⟨S50000x128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S50000, .i32⟩
  | 76 => ⟨S1x800000, .i32⟩
  | 77 => ⟨S800000, .i32⟩
  | 78 => ⟨S850000, .i32⟩
  | 79 => ⟨S1x800000, .i32⟩
  | 80 => ⟨S800000, .i32⟩
  | 81 => ⟨S850000, .i32⟩
  | 82 => ⟨S_, .f32⟩
  | 83 => ⟨S850000, .f32⟩
  | 84 => ⟨S_, .f32⟩
  | 85 => ⟨S50000, .f32⟩
  | 86 => ⟨S850000x1, .i32⟩
  | 87 => ⟨S50000, .f32⟩
  | 88 => ⟨S_, .f32⟩
  | 89 => ⟨S50000, .f32⟩
  | 90 => ⟨S50000, .i1⟩
  | 91 => ⟨S_, .f32⟩
  | 92 => ⟨S50000, .f32⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x1, .f32⟩
  | 127 => ⟨S850000x128, .f32⟩
  | _ => ⟨S50000x128, .f32⟩

abbrev hbmTy0_1 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S128x128, .f32⟩
  | 13 => ⟨S50000x1, .i32⟩
  | 14 => ⟨S128x128, .f32⟩
  | 15 => ⟨S_, .f32⟩
  | 16 => ⟨S50000, .f32⟩
  | 17 => ⟨S_, .f32⟩
  | 18 => ⟨S128, .f32⟩
  | 19 => ⟨S50000x1, .i32⟩
  | 20 => ⟨S128, .f32⟩
  | 21 => ⟨S_, .f32⟩
  | 22 => ⟨S128, .f32⟩
  | 23 => ⟨S128, .f32⟩
  | 24 => ⟨S128x1, .f32⟩
  | 25 => ⟨S128x128, .f32⟩
  | 26 => ⟨S128x128, .f32⟩
  | 27 => ⟨S128x7, .f32⟩
  | 28 => ⟨S1x7, .f32⟩
  | 29 => ⟨S128x7, .f32⟩
  | 30 => ⟨S128x7, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_c_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_19 : Ref sig .tc := ⟨.hbm, 117, rfl⟩
abbrev main_v81 : Ref sig .tc := ⟨.hbm, 118, rfl⟩
abbrev main_v82 : Ref sig .tc := ⟨.hbm, 119, rfl⟩
abbrev main_c_20 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_21 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_call3_cst : Ref sig .tc := ⟨.hbm, 136, rfl⟩
abbrev main_call3_v0 : Ref sig .tc := ⟨.hbm, 137, rfl⟩
abbrev main_v97 : Ref sig .tc := ⟨.hbm, 138, rfl⟩
abbrev main_cst_22 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_23 : Ref sig .tc := ⟨.hbm, 143, rfl⟩
abbrev main_v101 : Ref sig .tc := ⟨.hbm, 144, rfl⟩
abbrev main_cst_24 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_25 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S7_S1x7_1 : S7.BroadcastsInDim S1x7 (![1] : Fin 1 → Fin S1x7.rank)
  bcast_S1x7_S128x7_0_1 : S1x7.BroadcastsInDim S128x7 (![0, 1] : Fin 2 → Fin S128x7.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x7_S128x7_1_0_0_1_n_n_wf : DotDims.WF S128x128 S128x7 S128x7 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x7_S128x7_1_0_0_1_n_n : DotDims S128x128 S128x7 S128x7 where
  lhsContracting := [1]
  rhsContracting := [0]
  lhsNonContracting := [0]
  rhsNonContracting := [1]
  lhsBatch := []
  rhsBatch := []
  wf := dot_S128x128_S128x7_S128x7_1_0_0_1_n_n_wf

class Facts : Prop extends Facts₀ where

variable [Facts]
-- ==== Proof.KSpec.lean ====
/-
  The three kernels' results, entry by entry, over the extended reals.

  * `mm x w`   : the matrix product of the node features `x : [50000, 128]` with a weight `w : [128, 128]`:
                 entry `(r, j)` is the sum over `k` of `x (r, k) * w (k, j)`.
  * `hid a b`  : a layer's activation `max (a + b, 0)`, the bias `b : [1, 128]` added to every row of `a`.
  * `sums a b oh` : the pooled sums: entry `(g, d)` is the sum over every node `n` of `oh (n, g) * hid a b (n, d)`,
                 where `oh : [50000, 128]` is the membership table (1 where node `n` belongs to graph `g`, else 0).
  * `cnt oh`   : the graph sizes: entry `(g, 0)` is the sum over every node `n` of `oh (n, g)`.
-/
import proofs.«428602_j7928509628453_1_alg».proof.KernelIdeal
import Idealize.ShloMosaic.Lib.ValueIdx
import Idealize.ShloMosaic.PureOps.Ideal

noncomputable section

namespace Cert.KernelIdeal.KSpec

open Idealize.ShloMosaic Idealize.ShloMosaic.ValueIdx Cert.KernelIdeal

/-- Entry `(r, j)` of the product `x · w`. -/
def mmAt (x : S50000x128.Idx → EReal) (w : S128x128.Idx → EReal) (r : Fin 50000) (j : Fin 128) : EReal :=
  ∑ k : Fin 128, x (ix2 r k) * w (ix2 k j)

/-- The product `x · w` as an array. -/
def mm (x : S50000x128.Idx → EReal) (w : S128x128.Idx → EReal) : S50000x128.Idx → EReal :=
  fun i => mmAt x w (i 0) (i 1)

/-- Entry `(r, k)` of `max (a + b, 0)`, the bias row `b` added to every row. -/
def hidAt (a : S50000x128.Idx → EReal) (b : S1x128.Idx → EReal) (r : Fin 50000) (k : Fin 128) : EReal :=
  max (a (ix2 r k) + b (ix2 (0 : Fin 1) k)) 0

/-- `max (a + b, 0)` as an array. -/
def hid (a : S50000x128.Idx → EReal) (b : S1x128.Idx → EReal) : S50000x128.Idx → EReal :=
  fun i => hidAt a b (i 0) (i 1)

/-- Entry `(g, d)` of the pooled sums: every node's activation weighted by its membership in graph `g`. -/
def sumsAt (a : S50000x128.Idx → EReal) (b : S1x128.Idx → EReal) (oh : S50000x128.Idx → EReal) (g d : Fin 128) : EReal :=
  ∑ n : Fin 50000, oh (ix2 n g) * hidAt a b n d

/-- The pooled sums as an array. -/
def sums (a : S50000x128.Idx → EReal) (b : S1x128.Idx → EReal) (oh : S50000x128.Idx → EReal) : S128x128.Idx → EReal :=
  fun i => sumsAt a b oh (i 0) (i 1)

/-- The size of graph `g`: the sum of its membership column. -/
def cntAt (oh : S50000x128.Idx → EReal) (g : Fin 128) : EReal :=
  ∑ n : Fin 50000, oh (ix2 n g)

/-- The graph sizes as a column. -/
def cnt (oh : S50000x128.Idx → EReal) : S128x1.Idx → EReal :=
  fun i => cntAt oh (i 0)

theorem mm_ix2 (x : S50000x128.Idx → EReal) (w : S128x128.Idx → EReal) (r : Fin 50000) (j : Fin 128) :
    mm x w (ix2 r j) = mmAt x w r j := rfl

theorem hid_ix2 (a : S50000x128.Idx → EReal) (b : S1x128.Idx → EReal) (r : Fin 50000) (k : Fin 128) :
    hid a b (ix2 r k) = hidAt a b r k := rfl

theorem sums_ix2 (a : S50000x128.Idx → EReal) (b : S1x128.Idx → EReal) (oh : S50000x128.Idx → EReal) (g d : Fin 128) :
    sums a b oh (ix2 g d) = sumsAt a b oh g d := rfl

theorem cnt_ix2 (oh : S50000x128.Idx → EReal) (g : Fin 128) :
    cnt oh (ix2 g (0 : Fin 1)) = cntAt oh g := rfl

end Cert.KernelIdeal.KSpec

end
-- ==== Proof.LibPlainMatmul.lean ====
/-
  A plain matrix product into a zero accumulator, read at one entry over the extended reals.

  For `a : [M, K]` and `b : [K, N]` under the dimension numbers "contract the left operand's axis 1 with the right
  operand's axis 0, no batch axis" (`DotDims.plain M K N`), the product accumulated into the zero splat is, at entry
  `(i, l)`, the sum over the contracted coordinate `k` of `a (i, k) * b (k, l)`: the contraction index of these
  dimension numbers has one axis of extent `K`, so the sum over it is re-indexed by its one coordinate, and the operand
  indices at `(i, l)` and `k` are `(i, k)` and `(k, l)`. Nothing is assumed of the entries (they may be infinite).
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand is read on row `i` of the output entry, -/
theorem lhs_row (j : (⟨2, ![M, N]⟩ : Shape).Idx) (q : (DotDims.plain M K N).contr.Idx) :
    ((DotDims.plain M K N).lhsIdx j q 0).val = (j 0).val := rfl
/-- at the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate, -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- on column `l` of the output entry. -/
theorem rhs_col (j : (⟨2, ![M, N]⟩ : Shape).Idx) (q : (DotDims.plain M K N).contr.Idx) :
    ((DotDims.plain M K N).rhsIdx j q 1).val = (j 1).val := rfl

/-- THE PRODUCT AT AN ENTRY: `(a · b) (i, l) = ∑ k, a (i, k) * b (k, l)`, into the zero accumulator. -/
theorem matmul_zero_apply {φ₁ φ₂ : FTy} (prec : Option ContractPrecision)
    (a : FVec Ideal ⟨2, ![M, K]⟩ φ₁) (b : FVec Ideal ⟨2, ![K, N]⟩ φ₂) (i : Fin M) (l : Fin N) :
    FloatOps.matmul (DotDims.plain M K N) prec a b (constant (F := Ideal) ⟨2, ![M, N]⟩ .f32 0x00000000#32) (ix2 i l)
      = ∑ k : Fin K, a (ix2 i k) * b (ix2 k l) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i l) ((contrEquiv1 (DotDims.plain M K N) K rfl rfl).symm k) = ix2 i k :=
    funext fun c => Fin.ext (by
      match c with
      | ⟨0, _⟩ => exact lhs_row M K N _ _
      | ⟨1, _⟩ => exact (lhs_col M K N _ _).trans hk)
  have er : (DotDims.plain M K N).rhsIdx (ix2 i l) ((contrEquiv1 (DotDims.plain M K N) K rfl rfl).symm k) = ix2 k l :=
    funext fun c => Fin.ext (by
      match c with
      | ⟨0, _⟩ => exact (rhs_row M K N _ _).trans hk
      | ⟨1, _⟩ => exact rhs_col M K N _ _)
  rw [el, er]

end Idealize.ShloMosaic.PlainMatmul

end
-- ==== Proof.Region0.lean ====
/-
  The first kernel (25 row blocks of 2000 rows): the array it leaves is the product of the node features with the
  first weight, whatever the buffers hold when it is entered.
-/
import proofs.«428602_j7928509628453_1_alg».proof.Proof.Gen.KernelIdeal.Frame
import proofs.«428602_j7928509628453_1_alg».proof.Proof.KSpec
import proofs.«428602_j7928509628453_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the region is entered: any
variable (V : (c : Dev nD) → (b : Ref sig .tc) → Buf (Elt Ideal) ((c : Thread nD τ).loc b))

/-- The zero offset of the body's one load and one store rectangle. -/
theorem hz : (![0, 0] : Fin 2 → Nat) = fun _ => 0 := funext fun a => by fin_cases a <;> rfl

/-- The printed index maps over the 25 points: the feature block moves with the output block down the rows, the
    weight block stays at the origin, and the column block index is always zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every one of the 25 row blocks is some point's. -/
theorem idx_onto : ∀ q : Fin 25, ∃ t : Fin cfg0.N, win0_2.index t = ![q.val, 0] :=
  (by decide +kernel : ∀ q : Fin 25, ∃ t : Fin grid0.N, win0_2.index t = ![q.val, 0])

/-- The body's arithmetic at an entry: the narrowing is exact, so the product into the zero accumulator is the plain
    sum of products along the shared axis. -/
theorem pay_apply (x0 : S2000x128.Idx → EReal) (x1 : S128x128.Idx → EReal) (p : Fin 2000) (q : Fin 128) :
    k0_pay1 (F := Ideal) x0 x1 (ix2 p q) = ∑ k : Fin 128, x0 (ix2 p k) * x1 (ix2 k q) := by
  unfold k0_pay1
  show FloatOps.matmul (DotDims.plain 2000 128 128) none x0 x1
      (constant (F := Ideal) ⟨2, ![2000, 128]⟩ .f32 0x00000000#32) (ix2 p q) = _
  exact PlainMatmul.matmul_zero_apply 2000 128 128 none x0 x1 p q

/-- What point `t` writes back is its block of the product: entry `(p, q)` of the block is the sum over the shared axis
    of the feature block's row `p` against the weight's column `q`, and the feature block's row `p` is the array's
    row `2000 * (block index) + p`, which is the output block's row too. -/
theorem flushed_eq (c : Dev nD) (t : Fin cfg0.N) :
    (dat0 (F := Ideal) V c).flushed 2 t
      = ((cfg0.win 2).blk t).view.read (Elt Ideal) (KSpec.mm (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  have hp : p.val < 2000 := p.isLt
  have hq : q.val < 128 := q.isLt
  have hemb : ((cfg0.win 2).blk t).view.emb (ix2 p q)
      = ix2 (⟨win0_2.index t (0 : Fin 2) * 2000 + p.val, by omega⟩ : Fin 50000) q := by
    funext a; apply Fin.ext
    match a with
    | ⟨0, _⟩ => show win0_2.index t (0 : Fin 2) * 2000 + 1 * p.val = win0_2.index t (0 : Fin 2) * 2000 + p.val; omega
    | ⟨1, _⟩ => show win0_2.index t (1 : Fin 2) * 128 + 1 * q.val = q.val; omega
  show k0_pay1 (F := Ideal) (iblk0 V c 0 t) (iblk0 V c 1 t) (ix2 p q)
      = KSpec.mm (V c main_arg0) (V c main_arg3) (((cfg0.win 2).blk t).view.emb (ix2 p q))
  rw [hemb, KSpec.mm_ix2]
  refine (pay_apply (iblk0 V c 0 t) (iblk0 V c 1 t) p q).trans ?_
  unfold KSpec.mmAt
  refine Finset.sum_congr rfl fun k _ => ?_
  have hk : k.val < 128 := k.isLt
  have h0 : ((cfg0.win 0).blk t).view.emb (ix2 p k)
      = ix2 (⟨win0_2.index t (0 : Fin 2) * 2000 + p.val, by omega⟩ : Fin 50000) k := by
    funext a; apply Fin.ext
    match a with
    | ⟨0, _⟩ => show win0_0.index t (0 : Fin 2) * 2000 + 1 * p.val = win0_2.index t (0 : Fin 2) * 2000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have a0 : iblk0 V c 0 t (ix2 p k)
      = V c main_arg0 (ix2 (⟨win0_2.index t (0 : Fin 2) * 2000 + p.val, by omega⟩ : Fin 50000) k) :=
    congrArg (V c main_arg0) h0
  have a1 : iblk0 V c 1 t (ix2 k q) = V c main_arg3 (ix2 k q) := congrArg (V c main_arg3) h1
  exact congrArg₂ (fun a b : EReal => a * b) a0 a1

/-- An index of the array lies in point `t`'s block iff each coordinate lies in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v31).slice (win0_2.rect t)).set ↔ _
  rw [View.set_slice_whole, Rect.mem_set_unit]
  exact Iff.rfl

/-- The 25 row blocks fill the array: row `r` lies in the block whose index is `r / 2000`, and every column in the
    one column block. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The output array after the region: `x · w`, entry by entry. -/
theorem final (c : Dev nD) :
    (dat0 (F := Ideal) V c).arrAt 2 cfg0.N = KSpec.mm (V c main_arg0) (V c main_arg3) :=
  (dat0 (F := Ideal) V c).arrAt_eq_of_cover 2 _ (fun t _ => flushed_eq V c t) cover

end Cert.KernelIdeal.Region0

end
-- ==== Proof.Region1.lean ====
/-
  The second kernel (25 row blocks of 2000 rows): the array it leaves is the product of the first layer's
  activation `max (agg + b, 0)` with the second weight, whatever the buffers hold when it is entered.
-/
import proofs.«428602_j7928509628453_1_alg».proof.Proof.Gen.KernelIdeal.Frame
import proofs.«428602_j7928509628453_1_alg».proof.Proof.KSpec
import proofs.«428602_j7928509628453_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's result at one entry -/

/-- The zero offsets of a whole-block access, however they are spelt. -/
theorem hz : (![0, 0] : Fin 2 → Nat) = fun _ => 0 := funext fun a => by fin_cases a <;> rfl

/-- Entry `(p, q)` of the body's result on blocks `x0 : [2000, 128]`, `x1 : [1, 128]`, `x2 : [128, 128]`: the bias row
    is added to row `p` of `x0`, the sum is clamped below at zero, and the clamped row is multiplied into column `q`
    of `x2` (the product accumulates into the zero splat; the roundings to the narrow format are the identity over the
    extended reals). -/
theorem pay_apply (x0 : S2000x128.Idx → EReal) (x1 : S1x128.Idx → EReal) (x2 : S128x128.Idx → EReal)
    (p : Fin 2000) (q : Fin 128) :
    k1_pay1 (F := Ideal) x0 x1 x2 (ix2 p q)
      = ∑ k : Fin 128, max (x0 (ix2 p k) + x1 (ix2 (0 : Fin 1) k)) 0 * x2 (ix2 k q) := by
  unfold k1_pay1
  show FloatOps.matmul (DotDims.plain 2000 128 128) none _ _
      (constant (F := Ideal) ⟨2, ![2000, 128]⟩ .f32 0x00000000#32) (ix2 p q) = _
  rw [PlainMatmul.matmul_zero_apply]
  refine Finset.sum_congr rfl fun k _ => ?_
  rw [truncf_apply, truncf_apply, maximumf_apply, addf_apply, shapeCast_self, shapeCast_self,
    broadcastTo_1b_ab_apply, broadcast_apply]
  show max (x0 (ix2 p k) + x1 (ix2 (0 : Fin 1) k)) (Ideal.ofBits .f32 0x00000000#32) * x2 (ix2 k q) = _
  rw [Ideal.ofBits_zero_f32]

/-! ## The index maps over the grid -/

/-- The printed index maps, decided over the 25 points: the node-feature block moves with the output block on the rows
    and both stay on the one column block; the bias row and the weight are one whole block each. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 24 :=
  (by decide +kernel : ∀ t : Fin grid1.N, _)

/-- Every one of the 25 row blocks of the output is some point's. -/
theorem idx_onto : ∀ q : Fin 25, ∃ t : Fin cfg1.N, win1_3.index t = ![q.val, 0] :=
  (by decide +kernel : ∀ q : Fin 25, ∃ t : Fin grid1.N, win1_3.index t = ![q.val, 0])

-- the buffers' contents when the region is entered: any
variable (V : (c : Dev nD) → (b : Ref sig .tc) → Buf (Elt Ideal) ((c : Thread nD τ).loc b))

/-! ## What one point writes back -/

/-- WHAT POINT `t` WRITES BACK is block `t` of the product of the activation with the weight: at row `p`, column `q` of
    the block, the node-feature block is read on the output's own rows, the bias row and the weight are read whole. -/
theorem flushed_eq (c : Dev nD) (t : Fin cfg1.N) :
    (dat1 (F := Ideal) V c).flushed 3 t = ((cfg1.win 3).blk t).view.read (Elt Ideal)
      (KSpec.mm (KSpec.hid (V c main_v44) (V c main_v45)) (V c main_arg5)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz,
    View.ld_unit_zero (S := S128x128) hz]
  obtain ⟨e0, e1, e2, e3, e4, e5, e6, e7⟩ := idx_facts t
  refine funext fun (j : S2000x128.Idx) => ?_
  obtain ⟨p, q, rfl⟩ : ∃ (p : Fin 2000) (q : Fin 128), j = ix2 p q := ⟨j 0, j 1, eq_ix2 j⟩
  refine (pay_apply (iblk1 V c 0 t) (iblk1 V c 1 t) (iblk1 V c 2 t) p q).trans ?_
  -- the output entry's row in the array
  have hlt : win1_3.index t (0 : Fin 2) * 2000 + p.val < 50000 := by have := p.isLt; omega
  have hR : ((cfg1.win 3).blk t).view.emb (ix2 p q : S2000x128.Idx)
      = (ix2 (⟨win1_3.index t (0 : Fin 2) * 2000 + p.val, hlt⟩ : Fin 50000) q : S50000x128.Idx) := by
    funext a; apply Fin.ext
    match a with
    | ⟨0, _⟩ => show win1_3.index t (0 : Fin 2) * 2000 + 1 * p.val = win1_3.index t (0 : Fin 2) * 2000 + p.val; omega
    | ⟨1, _⟩ => show win1_3.index t (1 : Fin 2) * 128 + 1 * q.val = q.val; omega
  show _ = KSpec.mm (KSpec.hid (V c main_v44) (V c main_v45)) (V c main_arg5)
      (((cfg1.win 3).blk t).view.emb (ix2 p q : S2000x128.Idx))
  rw [hR, KSpec.mm_ix2]
  unfold KSpec.mmAt
  refine Finset.sum_congr rfl fun k _ => ?_
  rw [KSpec.hid_ix2]
  unfold KSpec.hidAt
  -- each input block read where the output entry says
  have h0 : ((cfg1.win 0).blk t).view.emb (ix2 p k : S2000x128.Idx)
      = (ix2 (⟨win1_3.index t (0 : Fin 2) * 2000 + p.val, hlt⟩ : Fin 50000) k : S50000x128.Idx) := by
    funext a; apply Fin.ext
    match a with
    | ⟨0, _⟩ => show win1_0.index t (0 : Fin 2) * 2000 + 1 * p.val = win1_3.index t (0 : Fin 2) * 2000 + p.val; omega
    | ⟨1, _⟩ => show win1_0.index t (1 : Fin 2) * 128 + 1 * k.val = k.val; omega
  have h1 : ((cfg1.win 1).blk t).view.emb (ix2 (0 : Fin 1) k : S1x128.Idx) = (ix2 (0 : Fin 1) k : S1x128.Idx) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k q : S128x128.Idx) = (ix2 k q : S128x128.Idx) := by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  have a0 : (iblk1 V c 0 t (ix2 p k : S2000x128.Idx) : EReal)
      = V c main_v44 (ix2 (⟨win1_3.index t (0 : Fin 2) * 2000 + p.val, hlt⟩ : Fin 50000) k : S50000x128.Idx) :=
    congrArg (V c main_v44) h0
  have a1 : (iblk1 V c 1 t (ix2 (0 : Fin 1) k : S1x128.Idx) : EReal) = V c main_v45 (ix2 (0 : Fin 1) k : S1x128.Idx) :=
    congrArg (V c main_v45) h1
  have a2 : (iblk1 V c 2 t (ix2 k q : S128x128.Idx) : EReal) = V c main_arg5 (ix2 k q : S128x128.Idx) :=
    congrArg (V c main_arg5) h2
  exact congrArg₂ (fun x y : EReal => x * y)
    (congrArg (fun x : EReal => max x 0) (congrArg₂ (fun x y : EReal => x + y) a0 a1)) a2

/-! ## From the blocks to the array -/

/-- A row and column of the array are in point `t`'s block iff each lies in the block's range on its axis. -/
theorem mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v46).slice (win1_3.rect t)).set ↔ _
  rw [View.set_slice_whole, Rect.mem_set_unit]
  exact Iff.rfl

/-- THE BLOCKS COVER THE ARRAY: row `r` lies in the block of the point whose block index is `r / 2000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- The output array after the region: `max (agg + b, 0) · w`, entry by entry. -/
theorem final (c : Dev nD) :
    (dat1 (F := Ideal) V c).arrAt 3 cfg1.N = KSpec.mm (KSpec.hid (V c main_v44) (V c main_v45)) (V c main_arg5) :=
  (dat1 (F := Ideal) V c).arrAt_eq_of_cover 3 _ (fun t _ => flushed_eq V c t) cover

end Cert.KernelIdeal.Region1

end
-- ==== Proof.Region2Pieces.lean ====
/-
  The third kernel's body, one grid point at a time.

  At the first point the body clears both resident outputs and then adds the point's contribution into them; at every
  later point it adds the contribution into what the point before left. The contribution to the sums at `(g, d)` is
  the sum over the block's 2000 nodes `k` of the membership entry `(k, g)` times the activation
  `max (a (k, d) + b (0, d), 0)`; the contribution to the sizes at `g` is the sum of the membership column `g`
  over the block (the block's membership table transposed and multiplied into a column of ones).
-/
import proofs.«428602_j7928509628453_1_alg».proof.Proof.Gen.KernelIdeal.Frame
import proofs.«428602_j7928509628453_1_alg».proof.Proof.KSpec
import proofs.«428602_j7928509628453_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.Region2Pieces

open Cert.KernelIdeal Cert.KernelIdeal.Gen
open Idealize.ShloMosaic Idealize.ShloMosaic.TcCoe Idealize.ShloMosaic.ValueIdx Idealize.ShloMosaic.Tactic Idealize.SL.Sem

section AnyFloats

variable {F : FTy → Type} [FloatOps F]

/-- The pair of zero offsets is the constant zero function. -/
private theorem hz : (![0, 0] : Fin 2 → Nat) = fun _ => 0 := funext fun a => by fin_cases a <;> rfl

/-- At the first point the sums' buffer ends at the contribution added to the cleared buffer. -/
theorem out2_A_3_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S2000x128 .bf16) (harg3 : arg3.IsWhole) (arg4 : Memref sig .tc .vmem S128x128 .f32) (harg4 : arg4.IsWhole) (arg5 : Memref sig .tc .vmem S128x1 .f32) (harg5 : arg5.IsWhole) (hc0 : cond2_0 i)
    (x0 : Vec F S2000x128 .f32) (x1 : Vec F S1x128 .f32) (x2 : Vec F S2000x128 .bf16) :
    out2_A_3 (F := F) c i arg1 harg1 arg2 harg2 arg3 harg3 arg4 harg4 arg5 harg5 hc0 x0 x1 x2 = k2_pay4 x0 x1 x2 k2_pay1 := by
  unfold out2_A_3
  rw [View.read_writes_eq_canon _ _ _ (cover2_A_3 c i arg1 harg1 arg2 harg2 arg3 harg3 arg4 harg4 arg5 harg5 hc0 x0 x1 x2)]
  unfold kernelRun2_A
  dsimp only
  sl_unfold_words
  rw [View.canon_cons_unit_zero (S := S128x128) hz]
  simp only [View.readAt_eq_ld, harg1.read_unread, harg2.read_unread, harg3.read_unread,
    View.ld_unit_zero (S := S2000x128) hz, View.ld_unit_zero (S := S1x128) hz,
    View.readCov_unit_zero (S := S128x128) _ hz]

/-- At the first point the sizes' buffer ends at the contribution added to the cleared buffer. -/
theorem out2_A_4_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S2000x128 .bf16) (harg3 : arg3.IsWhole) (arg4 : Memref sig .tc .vmem S128x128 .f32) (harg4 : arg4.IsWhole) (arg5 : Memref sig .tc .vmem S128x1 .f32) (harg5 : arg5.IsWhole) (hc0 : cond2_0 i)
    (x0 : Vec F S2000x128 .f32) (x1 : Vec F S1x128 .f32) (x2 : Vec F S2000x128 .bf16) :
    out2_A_4 (F := F) c i arg1 harg1 arg2 harg2 arg3 harg3 arg4 harg4 arg5 harg5 hc0 x0 x1 x2 = k2_pay5 x2 k2_pay2 := by
  unfold out2_A_4
  rw [View.read_writes_eq_canon _ _ _ (cover2_A_4 c i arg1 harg1 arg2 harg2 arg3 harg3 arg4 harg4 arg5 harg5 hc0 x0 x1 x2)]
  unfold kernelRun2_A
  dsimp only
  sl_unfold_words
  rw [View.canon_cons_unit_zero (S := S128x1) hz]
  simp only [View.readAt_eq_ld, harg3.read_unread,
    View.ld_unit_zero (S := S2000x128) hz,
    View.readCov_unit_zero (S := S128x1) _ hz]

/-- At a later point the sums' buffer ends at the contribution added to what it held. -/
theorem out2_B_3_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S2000x128 .bf16) (harg3 : arg3.IsWhole) (arg4 : Memref sig .tc .vmem S128x128 .f32) (harg4 : arg4.IsWhole) (arg5 : Memref sig .tc .vmem S128x1 .f32) (harg5 : arg5.IsWhole) (hc0 : ¬cond2_0 i)
    (x0 : Vec F S2000x128 .f32) (x1 : Vec F S1x128 .f32) (x2 : Vec F S2000x128 .bf16) (xo3 : Vec F S128x128 .f32) (xo4 : Vec F S128x1 .f32) :
    out2_B_3 (F := F) c i arg1 harg1 arg2 harg2 arg3 harg3 arg4 harg4 arg5 harg5 hc0 x0 x1 x2 xo3 xo4 = k2_pay4 x0 x1 x2 xo3 := by
  unfold out2_B_3
  rw [View.read_writes_eq_canon _ _ _ (cover2_B_3 c i arg1 harg1 arg2 harg2 arg3 harg3 arg4 harg4 arg5 harg5 hc0 x0 x1 x2 xo3 xo4)]
  unfold kernelRun2_B
  dsimp only
  sl_unfold_words
  rw [View.canon_unit_zero (S := S128x128) hz]
  simp only [View.readAt_eq_ld, harg1.read_unread, harg2.read_unread, harg3.read_unread, harg4.read_unread,
    View.ld_unit_zero (S := S2000x128) hz, View.ld_unit_zero (S := S1x128) hz, View.ld_unit_zero (S := S128x128) hz]

/-- At a later point the sizes' buffer ends at the contribution added to what it held. -/
theorem out2_B_4_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S2000x128 .bf16) (harg3 : arg3.IsWhole) (arg4 : Memref sig .tc .vmem S128x128 .f32) (harg4 : arg4.IsWhole) (arg5 : Memref sig .tc .vmem S128x1 .f32) (harg5 : arg5.IsWhole) (hc0 : ¬cond2_0 i)
    (x0 : Vec F S2000x128 .f32) (x1 : Vec F S1x128 .f32) (x2 : Vec F S2000x128 .bf16) (xo3 : Vec F S128x128 .f32) (xo4 : Vec F S128x1 .f32) :
    out2_B_4 (F := F) c i arg1 harg1 arg2 harg2 arg3 harg3 arg4 harg4 arg5 harg5 hc0 x0 x1 x2 xo3 xo4 = k2_pay5 x2 xo4 := by
  unfold out2_B_4
  rw [View.read_writes_eq_canon _ _ _ (cover2_B_4 c i arg1 harg1 arg2 harg2 arg3 harg3 arg4 harg4 arg5 harg5 hc0 x0 x1 x2 xo3 xo4)]
  unfold kernelRun2_B
  dsimp only
  sl_unfold_words
  rw [View.canon_unit_zero (S := S128x1) hz]
  simp only [View.readAt_eq_ld, harg3.read_unread, harg5.read_unread,
    View.ld_unit_zero (S := S2000x128) hz, View.ld_unit_zero (S := S128x1) hz]

end AnyFloats

/-! ## The contributions, entry by entry, over the extended reals -/

/-- The cleared sums are zero. -/
theorem pay1_apply (j : S128x128.Idx) : k2_pay1 (F := Ideal) j = 0 := by
  show Ideal.ofBits .f32 0x00000000#32 = 0
  exact Ideal.ofBits_zero_f32

/-- The cleared sizes are zero. -/
theorem pay2_apply (j : S128x1.Idx) : k2_pay2 (F := Ideal) j = 0 := by
  show Ideal.ofBits .f32 0x00000000#32 = 0
  exact Ideal.ofBits_zero_f32

/-- The membership block transposed: entry `(g, k)` of the transpose is entry `(k, g)` of the block. -/
theorem pay3_apply (x2 : S2000x128.Idx → EReal) (g : Fin 128) (k : Fin 2000) :
    k2_pay3 (F := Ideal) x2 (ix2 g k) = x2 (ix2 k g) := by
  unfold k2_pay3
  dsimp only
  rw [shapeCast_self]
  exact transpose_ix2_apply x2 _ g k

/-- The sums after a point: what they held plus the block's contribution. -/
theorem pay4_apply (x0 : S2000x128.Idx → EReal) (x1 : S1x128.Idx → EReal) (x2 : S2000x128.Idx → EReal) (acc : S128x128.Idx → EReal)
    (g d : Fin 128) :
    k2_pay4 (F := Ideal) x0 x1 x2 acc (ix2 g d)
      = acc (ix2 g d) + ∑ k : Fin 2000, x2 (ix2 k g) * max (x0 (ix2 k d) + x1 (ix2 (0 : Fin 1) d)) 0 := by
  unfold k2_pay4
  refine (addf_apply _ _ _).trans ?_
  refine congrArg₂ (· + ·) ?_ ?_
  · rw [shapeCast_self]
  · refine (Idealize.ShloMosaic.PlainMatmul.matmul_zero_apply 128 2000 128 none _ _ g d).trans ?_
    refine Finset.sum_congr rfl fun k _ => ?_
    refine congrArg₂ (· * ·) (pay3_apply x2 g k) ?_
    refine (truncf_apply (ψ := .bf16) _ bitsLt_bf16_f32 _).trans ?_
    refine (maximumf_apply _ _ _).trans ?_
    refine congrArg₂ max ?_ ?_
    · refine (addf_apply _ _ _).trans ?_
      refine congrArg₂ (· + ·) ?_ ?_
      · rw [shapeCast_self]
      · rw [shapeCast_self]
        exact broadcastTo_1b_ab_apply x1 _ k d
    · exact Ideal.ofBits_zero_f32

/-- The sizes after a point: what they held plus the block's membership column sum. -/
theorem pay5_apply (x2 : S2000x128.Idx → EReal) (acc : S128x1.Idx → EReal) (g : Fin 128) :
    k2_pay5 (F := Ideal) x2 acc (ix2 g (0 : Fin 1)) = acc (ix2 g (0 : Fin 1)) + ∑ k : Fin 2000, x2 (ix2 k g) := by
  unfold k2_pay5
  refine (addf_apply _ _ _).trans ?_
  refine congrArg₂ (· + ·) ?_ ?_
  · rw [shapeCast_self]
  · refine (Idealize.ShloMosaic.PlainMatmul.matmul_zero_apply 128 2000 1 none _ _ g (0 : Fin 1)).trans ?_
    refine Finset.sum_congr rfl fun k _ => ?_
    rw [pay3_apply]
    have h1 : (broadcast S2000x1 (Scalar.ofBits (F := Ideal) .bf16 0x3F80#16)) (ix2 k (0 : Fin 1)) = 1 := Ideal.ofBits_one_bf16
    rw [h1, mul_one]

end Cert.KernelIdeal.Region2Pieces

end
-- ==== Proof.Region2.lean ====
/-
  The third kernel (25 grid points, each adding one block of 2000 nodes into the two resident outputs): the arrays it
  leaves are the pooled sums and the graph sizes over all 50000 nodes, whatever the buffers hold when it is entered.
-/
import proofs.«428602_j7928509628453_1_alg».proof.Proof.Gen.KernelIdeal.Frame
import proofs.«428602_j7928509628453_1_alg».proof.Proof.KSpec
import proofs.«428602_j7928509628453_1_alg».proof.Proof.Region2Pieces
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the region is entered: any
variable (V : (c : Dev nD) → (b : Ref sig .tc) → Buf (Elt Ideal) ((c : Thread nD τ).loc b))

/-! ## The blocks and the arrays, over the extended reals -/

/-- The block index maps over the 25 points: the activation block and the membership block move down the rows with
    the point, the bias block and both output blocks stay at the origin. -/
theorem idx_facts : ∀ t : Fin cfg2.N, win2_0.index t (0 : Fin 2) = t.val ∧ win2_0.index t (1 : Fin 2) = 0
    ∧ win2_2.index t (0 : Fin 2) = t.val ∧ win2_2.index t (1 : Fin 2) = 0
    ∧ win2_1.index t (0 : Fin 2) = 0 ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The pre-activation array, the bias row and the membership table as the region finds them. -/
abbrev aarr (c : Dev nD) : S50000x128.Idx → EReal := V c main_v59
abbrev barr (c : Dev nD) : S1x128.Idx → EReal := V c main_v67
abbrev oarr (c : Dev nD) : S50000x128.Idx → EReal := V c main_v66

/-- Their blocks at point `t`. -/
abbrev ablk (c : Dev nD) (t : Fin cfg2.N) : S2000x128.Idx → EReal := iblk2 V c 0 t
abbrev bblk (c : Dev nD) (t : Fin cfg2.N) : S1x128.Idx → EReal := iblk2 V c 1 t
abbrev oblk (c : Dev nD) (t : Fin cfg2.N) : S2000x128.Idx → EReal := iblk2 V c 2 t

/-- What the two outputs hold after point `n`. -/
abbrev acc3 (c : Dev nD) (n : ℕ) (hn : n < cfg2.N) : S128x128.Idx → EReal := (outsAt2 V c n hn).1
abbrev acc4 (c : Dev nD) (n : ℕ) (hn : n < cfg2.N) : S128x1.Idx → EReal := (outsAt2 V c n hn).2

/-- Row `k` of point `t`'s activation block is row `2000 t + k` of the array. -/
theorem ablk_apply (c : Dev nD) (t : Fin cfg2.N) (k : Fin 2000) (d : Fin 128) (h : 2000 * t.val + k.val < 50000) :
    ablk V c t (ix2 k d) = aarr V c (ix2 (⟨2000 * t.val + k.val, h⟩ : Fin 50000) d) := by
  obtain ⟨e0, e1, e2, e3, e4, e5, e6, e7, e8, e9⟩ := idx_facts t
  have hk : k.val < 2000 := k.isLt
  have hd : d.val < 128 := d.isLt
  have hemb : ((cfg2.win 0).blk t).view.emb (ix2 k d) = ix2 (⟨2000 * t.val + k.val, h⟩ : Fin 50000) d := by
    funext a; apply Fin.ext
    match a with
    | ⟨0, _⟩ => show win2_0.index t (0 : Fin 2) * 2000 + 1 * k.val = 2000 * t.val + k.val; omega
    | ⟨1, _⟩ => show win2_0.index t (1 : Fin 2) * 128 + 1 * d.val = d.val; omega
  show V c main_v59 (((cfg2.win 0).blk t).view.emb (ix2 k d)) = _
  rw [hemb]

/-- Row `k` of point `t`'s membership block is row `2000 t + k` of the table. -/
theorem oblk_apply (c : Dev nD) (t : Fin cfg2.N) (k : Fin 2000) (g : Fin 128) (h : 2000 * t.val + k.val < 50000) :
    oblk V c t (ix2 k g) = oarr V c (ix2 (⟨2000 * t.val + k.val, h⟩ : Fin 50000) g) := by
  obtain ⟨e0, e1, e2, e3, e4, e5, e6, e7, e8, e9⟩ := idx_facts t
  have hk : k.val < 2000 := k.isLt
  have hg : g.val < 128 := g.isLt
  have hemb : ((cfg2.win 2).blk t).view.emb (ix2 k g) = ix2 (⟨2000 * t.val + k.val, h⟩ : Fin 50000) g := by
    funext a; apply Fin.ext
    match a with
    | ⟨0, _⟩ => show win2_2.index t (0 : Fin 2) * 2000 + 1 * k.val = 2000 * t.val + k.val; omega
    | ⟨1, _⟩ => show win2_2.index t (1 : Fin 2) * 128 + 1 * g.val = g.val; omega
  show V c main_v66 (((cfg2.win 2).blk t).view.emb (ix2 k g)) = _
  rw [hemb]

/-- The bias block is the whole bias row at every point. -/
theorem bblk_apply (c : Dev nD) (t : Fin cfg2.N) (d : Fin 128) :
    bblk V c t (ix2 (0 : Fin 1) d) = barr V c (ix2 (0 : Fin 1) d) := by
  obtain ⟨e0, e1, e2, e3, e4, e5, e6, e7, e8, e9⟩ := idx_facts t
  have hd : d.val < 128 := d.isLt
  have hemb : ((cfg2.win 1).blk t).view.emb (ix2 (0 : Fin 1) d) = ix2 (0 : Fin 1) d := by
    funext a; apply Fin.ext
    match a with
    | ⟨0, _⟩ => show win2_1.index t (0 : Fin 2) * 1 + 1 * (0 : Fin 1).val = (0 : Fin 1).val; simp only [e4, Fin.val_zero]
    | ⟨1, _⟩ => show win2_1.index t (1 : Fin 2) * 128 + 1 * d.val = d.val; omega
  show V c main_v67 (((cfg2.win 1).blk t).view.emb (ix2 (0 : Fin 1) d)) = _
  rw [hemb]

/-! ## The pooled sums -/

/-- Node `m`'s term of the pooled sum at `(g, d)`: its membership in graph `g` times its activation in column `d`
    (zero past the last node). -/
def termS (c : Dev nD) (g d : Fin 128) (m : ℕ) : EReal :=
  if h : m < 50000 then oarr V c (ix2 (⟨m, h⟩ : Fin 50000) g) * KSpec.hidAt (aarr V c) (barr V c) ⟨m, h⟩ d else 0

/-- Point `t`'s contribution to the sums is the terms of its 2000 nodes. -/
theorem contrib3 (c : Dev nD) (t : Fin cfg2.N) (g d : Fin 128) :
    ∑ k : Fin 2000, oblk V c t (ix2 k g) * max (ablk V c t (ix2 k d) + bblk V c t (ix2 (0 : Fin 1) d)) 0
      = ∑ k : Fin 2000, termS V c g d (2000 * t.val + k.val) := by
  have hN : t.val < 25 := lt_of_lt_of_eq t.isLt (show cfg2.N = 25 from N_2)
  refine Finset.sum_congr rfl fun k _ => ?_
  have hk : k.val < 2000 := k.isLt
  have h : 2000 * t.val + k.val < 50000 := by omega
  rw [ablk_apply V c t k d h, oblk_apply V c t k g h, bblk_apply V c t d]
  unfold termS
  rw [dif_pos h]
  rfl

/-- At the first point the sums hold that point's contribution (added to the cleared buffer). -/
theorem base3 (c : Dev nD) (t : Fin cfg2.N) (h0 : t.val % 25 = 0) (g d : Fin 128) :
    acc3 V c t.val t.isLt (ix2 g d) = ∑ k : Fin 2000, termS V c g d (2000 * t.val + k.val) := by
  show (outsAt2 V c t.val t.isLt).1 (ix2 g d) = _
  rw [outsAt2_A V c t h0]; dsimp only
  refine (congrFun (Region2Pieces.out2_A_3_eq (F := Ideal) c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t)) (ix2 g d)).trans ?_
  refine (Region2Pieces.pay4_apply (ablk V c t) (bblk V c t) (oblk V c t) (k2_pay1 (F := Ideal)) g d).trans ?_
  rw [Region2Pieces.pay1_apply, zero_add]
  exact contrib3 V c t g d

/-- At a later point the sums hold what the point before left plus that point's contribution. -/
theorem step3 (c : Dev nD) (t : Fin cfg2.N) (h0 : ¬t.val % 25 = 0) (g d : Fin 128) :
    acc3 V c t.val t.isLt (ix2 g d)
      = acc3 V c (t.val - 1) (Nat.lt_of_le_of_lt (Nat.sub_le _ _) t.isLt) (ix2 g d)
        + ∑ k : Fin 2000, termS V c g d (2000 * t.val + k.val) := by
  show (outsAt2 V c t.val t.isLt).1 (ix2 g d) = _
  rw [outsAt2_B V c t h0]; dsimp only
  refine (congrFun (Region2Pieces.out2_B_3_eq (F := Ideal) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (outsAt2 V c (t.val - 1) (Nat.lt_of_le_of_lt (Nat.sub_le _ _) t.isLt)).1 (outsAt2 V c (t.val - 1) (Nat.lt_of_le_of_lt (Nat.sub_le _ _) t.isLt)).2) (ix2 g d)).trans ?_
  refine (Region2Pieces.pay4_apply (ablk V c t) (bblk V c t) (oblk V c t) (acc3 V c (t.val - 1) (Nat.lt_of_le_of_lt (Nat.sub_le _ _) t.isLt)) g d).trans ?_
  rw [contrib3 V c t g d]

/-- THE INVARIANT of the sums: after point `n` they hold the terms of the first `2000 (n + 1)` nodes. -/
theorem inv3 (c : Dev nD) (g d : Fin 128) : ∀ (n : ℕ) (hn : n < cfg2.N),
    acc3 V c n hn (ix2 g d) = ∑ m ∈ Finset.range (2000 * (n + 1)), termS V c g d m
  | 0, hn => by
    refine (base3 V c ⟨0, hn⟩ rfl g d).trans ?_
    show _ = ∑ m ∈ Finset.range 2000, termS V c g d m
    rw [Finset.sum_range]
    refine Finset.sum_congr rfl fun k _ => ?_
    exact congrArg (termS V c g d) (by show 2000 * 0 + k.val = k.val; omega)
  | n + 1, hn => by
    have hN : cfg2.N = 25 := N_2
    have hB : ¬(⟨n + 1, hn⟩ : Fin cfg2.N).val % 25 = 0 := by dsimp only; omega
    refine (step3 V c ⟨n + 1, hn⟩ hB g d).trans ?_
    show acc3 V c n (Nat.lt_of_succ_lt hn) (ix2 g d) + ∑ k : Fin 2000, termS V c g d (2000 * (n + 1) + k.val) = _
    rw [inv3 c g d n (Nat.lt_of_succ_lt hn), show 2000 * (n + 1 + 1) = 2000 * (n + 1) + 2000 from by ring,
      Finset.sum_range_add]
    exact congrArg (fun z => _ + z) (Finset.sum_range (fun x => termS V c g d (2000 * (n + 1) + x))).symm

/-- All 50000 terms are the specification's sum. -/
theorem total3 (c : Dev nD) (g d : Fin 128) :
    ∑ m ∈ Finset.range 50000, termS V c g d m = KSpec.sumsAt (aarr V c) (barr V c) (oarr V c) g d := by
  rw [Finset.sum_range]
  unfold KSpec.sumsAt
  refine Finset.sum_congr rfl fun n _ => ?_
  unfold termS
  rw [dif_pos n.isLt]

/-- The last point. -/
abbrev tlast : Fin cfg2.N := ⟨24, by rw [show cfg2.N = 25 from N_2]; decide⟩

/-- The one write-back of the sums, at the last point, writes the specification's array: the output's one block is
    the whole array. -/
theorem flushed3_eq (c : Dev nD) (t : Fin cfg2.N) (hf : (cfg2.win 3).flush t = true) :
    (dat2 (F := Ideal) V c).flushed 3 t
      = ((cfg2.win 3).blk t).view.read (Elt Ideal) (KSpec.sums (V c main_v59) (V c main_v67) (V c main_v66)) := by
  have hN : t.val < 25 := lt_of_lt_of_eq t.isLt (show cfg2.N = 25 from N_2)
  have h24 : t.val = 24 := by have := (flush2_3 t).mp hf; omega
  obtain ⟨e0, e1, e2, e3, e4, e5, e6, e7, e8, e9⟩ := idx_facts t
  show (cfg2.win 3).cut (grid2.coords t) ((dat2 V c).after 3 t) = _
  rw [after2_3]
  funext j
  obtain ⟨g, d, rfl⟩ : ∃ (g : Fin 128) (d : Fin 128), j = ix2 g d := ⟨j 0, j 1, eq_ix2 j⟩
  have hg : g.val < 128 := g.isLt
  have hd : d.val < 128 := d.isLt
  have hemb : ((cfg2.win 3).blk t).view.emb (ix2 g d) = ix2 g d := by
    funext a; apply Fin.ext
    match a with
    | ⟨0, _⟩ => show win2_3.index t (0 : Fin 2) * 128 + 1 * g.val = g.val; omega
    | ⟨1, _⟩ => show win2_3.index t (1 : Fin 2) * 128 + 1 * d.val = d.val; omega
  rw [View.read_apply, hemb]
  refine Eq.trans (b := acc3 V c t.val t.isLt (ix2 g d)) rfl ?_
  refine Eq.trans ?_ (cast_eq _ _).symm
  show acc3 V c t.val t.isLt (ix2 g d) = KSpec.sums (aarr V c) (barr V c) (oarr V c) (ix2 g d)
  rw [KSpec.sums_ix2, inv3 V c g d t.val t.isLt, h24]
  exact total3 V c g d

/-- Every index of the sums' array lies in the last point's block. -/
theorem cover3 (i : S128x128.Idx) :
    ∃ t : Fin cfg2.N, (cfg2.win 3).flush t = true ∧ i ∈ ((cfg2.win 3).blk t).view.set := by
  refine ⟨tlast, (flush2_3 tlast).mpr rfl, ?_⟩
  obtain ⟨e0, e1, e2, e3, e4, e5, e6, e7, e8, e9⟩ := idx_facts tlast
  show i ∈ ((View.whole main_v68_0).slice (win2_3.rect tlast)).set
  rw [View.set_slice_whole, Rect.mem_set_unit]
  intro a
  have h0 : (i 0).val < 128 := (i 0).isLt
  have h1 : (i 1).val < 128 := (i 1).isLt
  match a with
  | ⟨0, _⟩ => show win2_3.index tlast (0 : Fin 2) * 128 ≤ (i 0).val ∧ (i 0).val < win2_3.index tlast (0 : Fin 2) * 128 + 128; omega
  | ⟨1, _⟩ => show win2_3.index tlast (1 : Fin 2) * 128 ≤ (i 1).val ∧ (i 1).val < win2_3.index tlast (1 : Fin 2) * 128 + 128; omega

/-- The first output array after the region: the pooled sums. -/
theorem final_sums (c : Dev nD) :
    (dat2 (F := Ideal) V c).arrAt 3 cfg2.N = KSpec.sums (V c main_v59) (V c main_v67) (V c main_v66) :=
  (dat2 (F := Ideal) V c).arrAt_eq_of_cover 3 _ (flushed3_eq V c) fun i => cover3 i

/-! ## The graph sizes -/

/-- Node `m`'s term of graph `g`'s size: its membership entry (zero past the last node). -/
def termC (c : Dev nD) (g : Fin 128) (m : ℕ) : EReal :=
  if h : m < 50000 then oarr V c (ix2 (⟨m, h⟩ : Fin 50000) g) else 0

/-- Point `t`'s contribution to the sizes is the membership entries of its 2000 nodes. -/
theorem contrib4 (c : Dev nD) (t : Fin cfg2.N) (g : Fin 128) :
    ∑ k : Fin 2000, oblk V c t (ix2 k g) = ∑ k : Fin 2000, termC V c g (2000 * t.val + k.val) := by
  have hN : t.val < 25 := lt_of_lt_of_eq t.isLt (show cfg2.N = 25 from N_2)
  refine Finset.sum_congr rfl fun k _ => ?_
  have hk : k.val < 2000 := k.isLt
  have h : 2000 * t.val + k.val < 50000 := by omega
  rw [oblk_apply V c t k g h]
  unfold termC
  rw [dif_pos h]

/-- At the first point the sizes hold that point's contribution (added to the cleared buffer). -/
theorem base4 (c : Dev nD) (t : Fin cfg2.N) (h0 : t.val % 25 = 0) (g : Fin 128) :
    acc4 V c t.val t.isLt (ix2 g (0 : Fin 1)) = ∑ k : Fin 2000, termC V c g (2000 * t.val + k.val) := by
  show (outsAt2 V c t.val t.isLt).2 (ix2 g (0 : Fin 1)) = _
  rw [outsAt2_A V c t h0]; dsimp only
  refine (congrFun (Region2Pieces.out2_A_4_eq (F := Ideal) c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t) (iblk2 V c 2 t)) (ix2 g (0 : Fin 1))).trans ?_
  refine (Region2Pieces.pay5_apply (oblk V c t) (k2_pay2 (F := Ideal)) g).trans ?_
  rw [Region2Pieces.pay2_apply, zero_add]
  exact contrib4 V c t g

/-- At a later point the sizes hold what the point before left plus that point's contribution. -/
theorem step4 (c : Dev nD) (t : Fin cfg2.N) (h0 : ¬t.val % 25 = 0) (g : Fin 128) :
    acc4 V c t.val t.isLt (ix2 g (0 : Fin 1))
      = acc4 V c (t.val - 1) (Nat.lt_of_le_of_lt (Nat.sub_le _ _) t.isLt) (ix2 g (0 : Fin 1))
        + ∑ k : Fin 2000, termC V c g (2000 * t.val + k.val) := by
  show (outsAt2 V c t.val t.isLt).2 (ix2 g (0 : Fin 1)) = _
  rw [outsAt2_B V c t h0]; dsimp only
  refine (congrFun (Region2Pieces.out2_B_4_eq (F := Ideal) c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (iblk2 V c 2 t) (outsAt2 V c (t.val - 1) (Nat.lt_of_le_of_lt (Nat.sub_le _ _) t.isLt)).1 (outsAt2 V c (t.val - 1) (Nat.lt_of_le_of_lt (Nat.sub_le _ _) t.isLt)).2) (ix2 g (0 : Fin 1))).trans ?_
  refine (Region2Pieces.pay5_apply (oblk V c t) (acc4 V c (t.val - 1) (Nat.lt_of_le_of_lt (Nat.sub_le _ _) t.isLt)) g).trans ?_
  rw [contrib4 V c t g]

/-- THE INVARIANT of the sizes: after point `n` they hold the membership entries of the first `2000 (n + 1)` nodes. -/
theorem inv4 (c : Dev nD) (g : Fin 128) : ∀ (n : ℕ) (hn : n < cfg2.N),
    acc4 V c n hn (ix2 g (0 : Fin 1)) = ∑ m ∈ Finset.range (2000 * (n + 1)), termC V c g m
  | 0, hn => by
    refine (base4 V c ⟨0, hn⟩ rfl g).trans ?_
    show _ = ∑ m ∈ Finset.range 2000, termC V c g m
    rw [Finset.sum_range]
    refine Finset.sum_congr rfl fun k _ => ?_
    exact congrArg (termC V c g) (by show 2000 * 0 + k.val = k.val; omega)
  | n + 1, hn => by
    have hN : cfg2.N = 25 := N_2
    have hB : ¬(⟨n + 1, hn⟩ : Fin cfg2.N).val % 25 = 0 := by dsimp only; omega
    refine (step4 V c ⟨n + 1, hn⟩ hB g).trans ?_
    show acc4 V c n (Nat.lt_of_succ_lt hn) (ix2 g (0 : Fin 1)) + ∑ k : Fin 2000, termC V c g (2000 * (n + 1) + k.val) = _
    rw [inv4 c g n (Nat.lt_of_succ_lt hn), show 2000 * (n + 1 + 1) = 2000 * (n + 1) + 2000 from by ring,
      Finset.sum_range_add]
    exact congrArg (fun z => _ + z) (Finset.sum_range (fun x => termC V c g (2000 * (n + 1) + x))).symm

/-- All 50000 membership entries of a column are the specification's size. -/
theorem total4 (c : Dev nD) (g : Fin 128) :
    ∑ m ∈ Finset.range 50000, termC V c g m = KSpec.cntAt (oarr V c) g := by
  rw [Finset.sum_range]
  unfold KSpec.cntAt
  refine Finset.sum_congr rfl fun n _ => ?_
  unfold termC
  rw [dif_pos n.isLt]

/-- The one write-back of the sizes, at the last point, writes the specification's column: the output's one block is
    the whole array. -/
theorem flushed4_eq (c : Dev nD) (t : Fin cfg2.N) (hf : (cfg2.win 4).flush t = true) :
    (dat2 (F := Ideal) V c).flushed 4 t
      = ((cfg2.win 4).blk t).view.read (Elt Ideal) (KSpec.cnt (V c main_v66)) := by
  have hN : t.val < 25 := lt_of_lt_of_eq t.isLt (show cfg2.N = 25 from N_2)
  have h24 : t.val = 24 := by have := (flush2_4 t).mp hf; omega
  obtain ⟨e0, e1, e2, e3, e4, e5, e6, e7, e8, e9⟩ := idx_facts t
  show (cfg2.win 4).cut (grid2.coords t) ((dat2 V c).after 4 t) = _
  rw [after2_4]
  funext j
  obtain ⟨g, z, rfl⟩ : ∃ (g : Fin 128) (z : Fin 1), j = ix2 g z := ⟨j 0, j 1, eq_ix2 j⟩
  obtain rfl : z = 0 := Subsingleton.elim _ _
  have hg : g.val < 128 := g.isLt
  have hemb : ((cfg2.win 4).blk t).view.emb (ix2 g (0 : Fin 1)) = ix2 g (0 : Fin 1) := by
    funext a; apply Fin.ext
    match a with
    | ⟨0, _⟩ => show win2_4.index t (0 : Fin 2) * 128 + 1 * g.val = g.val; omega
    | ⟨1, _⟩ => show win2_4.index t (1 : Fin 2) * 1 + 1 * (0 : Fin 1).val = (0 : Fin 1).val; simp only [e9, Fin.val_zero]
  rw [View.read_apply, hemb]
  refine Eq.trans (b := acc4 V c t.val t.isLt (ix2 g (0 : Fin 1))) rfl ?_
  refine Eq.trans ?_ (cast_eq _ _).symm
  show acc4 V c t.val t.isLt (ix2 g (0 : Fin 1)) = KSpec.cnt (oarr V c) (ix2 g (0 : Fin 1))
  rw [KSpec.cnt_ix2, inv4 V c g t.val t.isLt, h24]
  exact total4 V c g

/-- Every index of the sizes' array lies in the last point's block. -/
theorem cover4 (i : S128x1.Idx) :
    ∃ t : Fin cfg2.N, (cfg2.win 4).flush t = true ∧ i ∈ ((cfg2.win 4).blk t).view.set := by
  refine ⟨tlast, (flush2_4 tlast).mpr rfl, ?_⟩
  obtain ⟨e0, e1, e2, e3, e4, e5, e6, e7, e8, e9⟩ := idx_facts tlast
  show i ∈ ((View.whole main_v68_1).slice (win2_4.rect tlast)).set
  rw [View.set_slice_whole, Rect.mem_set_unit]
  intro a
  have h0 : (i 0).val < 128 := (i 0).isLt
  have h1 : (i 1).val < 1 := (i 1).isLt
  match a with
  | ⟨0, _⟩ => show win2_4.index tlast (0 : Fin 2) * 128 ≤ (i 0).val ∧ (i 0).val < win2_4.index tlast (0 : Fin 2) * 128 + 128; omega
  | ⟨1, _⟩ => show win2_4.index tlast (1 : Fin 2) * 1 ≤ (i 1).val ∧ (i 1).val < win2_4.index tlast (1 : Fin 2) * 1 + 1; omega

/-- The second output array after the region: the graph sizes. -/
theorem final_cnt (c : Dev nD) :
    (dat2 (F := Ideal) V c).arrAt 4 cfg2.N = KSpec.cnt (V c main_v66) :=
  (dat2 (F := Ideal) V c).arrAt_eq_of_cover 4 _ (flushed4_eq V c) fun i => cover4 i

end Cert.KernelIdeal.Region2

end
-- ==== Proof.Result.lean ====
/-
  The value both programs compute, as one term of the nine argument arrays.

  Two graph-convolution layers and a mean pool. A layer multiplies the node features by its weight (`KSpec.mm`),
  gathers each edge's source row scaled by the edge's normalisation and adds it into the edge's target row
  (`aggA`, `aggB`: the host's gather, product and accumulating scatter, spelt as the reference spells its first and
  its second layer; the edge lists and the normalisation are functions of the edge array alone), then adds the bias
  and clamps at zero (`KSpec.hid`). The pool sums each graph's rows (`KSpec.sums` over the membership table
  `onehot`: 1 where the node's graph id is the column, else 0), divides by the graph's size clamped below at one, and
  applies the last affine map (`tail`).
-/
import proofs.«428602_j7928509628453_1_alg».proof.Proof.Gen.KernelIdeal
import proofs.«428602_j7928509628453_1_alg».proof.Proof.KSpec
import proofs.«428602_j7928509628453_1_alg».proof.Proof.RefRead

noncomputable section

namespace Cert.KernelIdeal.Result

open Cert.KernelIdeal Cert.KernelIdeal.Gen Idealize.ShloMosaic Idealize.ShloMosaic.TcCoe Cert.ReferenceIdeal.Read

section AnyFloats

variable {F : FTy → Type} [FloatOps F]

/-- One layer's aggregation of the transformed features `t` along the edges `ei` (self loops appended): row `r` is
    the sum over the edges into `r` of the source's row of `t` times the edge's normalisation. The host operations
    of the reference's FIRST layer. -/
def aggA (t : (⟨S50000x128, .f32⟩ : BufTy).Contents (Elt F)) (ei : (⟨S2x800000, .i32⟩ : BufTy).Contents (Elt F)) : (⟨S50000x128, .f32⟩ : BufTy).Contents (Elt F) :=
  Host.scatterAdd (F := F) scatter_S50000x128_S850000x1_S850000x128_1_0_0_1 (val_main_v42 (F := F)) (val_main_v43 (F := F) ei)
    (mulf (Host.gather gather_S50000x128_S850000x1_S850000x128_1_0_n_n_0_1_1128 t (val_main_v37 (F := F) ei)) (val_main_v40 (F := F) ei))

/-- The same aggregation, in the host operations of the reference's SECOND layer (it computes the edge lists and the
    normalisation again). -/
def aggB (t : (⟨S50000x128, .f32⟩ : BufTy).Contents (Elt F)) (ei : (⟨S2x800000, .i32⟩ : BufTy).Contents (Elt F)) : (⟨S50000x128, .f32⟩ : BufTy).Contents (Elt F) :=
  Host.scatterAdd (F := F) scatter_S50000x128_S850000x1_S850000x128_1_0_0_1 (val_main_v91 (F := F)) (val_main_v92 (F := F) ei)
    (mulf (Host.gather gather_S50000x128_S850000x1_S850000x128_1_0_n_n_0_1_1128 t (val_main_v86 (F := F) ei)) (val_main_v89 (F := F) ei))

/-- The membership table: entry `(n, g)` is 1 when node `n`'s graph id is `g`, else 0. -/
def onehot (batch : (⟨S50000, .i32⟩ : BufTy).Contents (Elt F)) : (⟨S50000x128, .bf16⟩ : BufTy).Contents (Elt F) :=
  uitofp (F := F) .bf16 (cmpi .eq
    (broadcastInDim S50000x128 ![0, 1] bcast_S50000x1_S50000x128_0_1 (broadcastInDim S50000x1 ![0] bcast_S50000_S50000x1_0 batch))
    (broadcastInDim S50000x128 ![0, 1] bcast_S1x128_S50000x128_0_1 (broadcastInDim S1x128 ![1] bcast_S128_S1x128_1 (iotaInDim S128 32 0))))

/-- The mean and the last affine map: `(s / max (cn, 1)) · Wfc + bfc`, the sizes `cn` a column. -/
def tail (s : (⟨S128x128, .f32⟩ : BufTy).Contents (Elt F)) (cn : (⟨S128x1, .f32⟩ : BufTy).Contents (Elt F)) (Wfc : (⟨S128x7, .f32⟩ : BufTy).Contents (Elt F)) (bfc : (⟨S7, .f32⟩ : BufTy).Contents (Elt F)) : (⟨S128x7, .f32⟩ : BufTy).Contents (Elt F) :=
  addf (F := F)
    (Host.dotGeneral dot_S128x128_S128x7_S128x7_1_0_0_1_n_n none
      (Host.divf s (broadcastInDim S128x128 ![0, 1] bcast_S128x1_S128x128_0_1
        (maximumf cn (broadcastInDim S128x1 ![] bcast_S_S128x1 (constant (F := F) S_ .f32 0x3F800000#32)))))
      Wfc)
    (broadcastInDim S128x7 ![0, 1] bcast_S1x7_S128x7_0_1 (broadcastInDim S1x7 ![1] bcast_S7_S1x7_1 bfc))

end AnyFloats

/-- The whole computation, over the extended reals. -/
def result (x : (⟨S50000x128, .f32⟩ : BufTy).Contents (Elt Ideal)) (ei : (⟨S2x800000, .i32⟩ : BufTy).Contents (Elt Ideal)) (batch : (⟨S50000, .i32⟩ : BufTy).Contents (Elt Ideal)) (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal)) (Wfc : (⟨S128x7, .f32⟩ : BufTy).Contents (Elt Ideal)) (bfc : (⟨S7, .f32⟩ : BufTy).Contents (Elt Ideal)) : (⟨S128x7, .f32⟩ : BufTy).Contents (Elt Ideal) :=
  tail (F := Ideal)
    (KSpec.sums
      (aggB (F := Ideal) (KSpec.mm (KSpec.hid (aggA (F := Ideal) (KSpec.mm x W1) ei) (shapeCast S1x128 b1 shapeCasts_S128_S1x128)) W2) ei)
      (shapeCast S1x128 b2 shapeCasts_S128_S1x128) (onehot (F := Ideal) batch))
    (KSpec.cnt (onehot (F := Ideal) batch)) Wfc bfc

end Cert.KernelIdeal.Result

end
-- ==== Proof.KHost.lean ====
/-
  The kernel program's result buffer, read back through its host operations and its three kernels, is the one
  term `Result.result` of the argument arrays.

  The program is nine segments: three stretches of host operations (the edge lists with self loops, the degrees and
  the edge normalisation: functions of the edge array alone), the first product, the first aggregation, the second
  product, the second aggregation with the membership table, the pool, and the mean with the last affine map. Each
  boundary's contents are read one segment at a time: what a stretch computes is its operations applied to the
  contents before it, a buffer it does not write keeps its contents, and a kernel leaves its output array at the value
  proved for it and every other buffer as it was.
-/
import proofs.«428602_j7928509628453_1_alg».proof.Proof.Gen.KernelIdeal.Frame
import proofs.«428602_j7928509628453_1_alg».proof.Proof.Region0
import proofs.«428602_j7928509628453_1_alg».proof.Proof.Region1
import proofs.«428602_j7928509628453_1_alg».proof.Proof.Region2
import proofs.«428602_j7928509628453_1_alg».proof.Proof.Result
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Cert.ReferenceIdeal.Read

section AnyFloats

variable {F : FTy → Type} [FloatOps F]
variable (m : (ℓ : Loc nD τ sig) → Buf (Elt F) ℓ) (ρ : Dev nD → PrngReg)

/-! ## Before the first kernel: the edge lists, the normalisation, the arguments -/

set_option maxHeartbeats 4000000 in
theorem W3_src (c : Dev nD) : W3 m ρ c (Proc.devRef .tc main_v5) = val_main_v4 (F := F) (m ((c : Thread nD τ).loc main_arg1)) := by
  dsimp only [W3, W2, W1]
  after_results_simp <;> rfl

set_option maxHeartbeats 4000000 in
theorem W3_dst (c : Dev nD) : W3 m ρ c (Proc.devRef .tc main_v6) = val_main_v7 (F := F) (m ((c : Thread nD τ).loc main_arg1)) := by
  dsimp only [W3, W2, W1]
  after_results_simp <;> rfl

set_option maxHeartbeats 4000000 in
theorem W3_norm (c : Dev nD) : W3 m ρ c (Proc.devRef .tc main_v30) = val_main_v31 (F := F) (m ((c : Thread nD τ).loc main_arg1)) := by
  dsimp only [W3, W2, W1]
  after_results_simp <;> rfl

set_option maxHeartbeats 4000000 in
theorem W3_arg0 (c : Dev nD) : W3 m ρ c (Proc.devRef .tc main_arg0) = (m ((c : Thread nD τ).loc main_arg0)) := by
  dsimp only [W3, W2, W1]
  after_results_simp <;> rfl

set_option maxHeartbeats 4000000 in
theorem W3_arg2 (c : Dev nD) : W3 m ρ c (Proc.devRef .tc main_arg2) = (m ((c : Thread nD τ).loc main_arg2)) := by
  dsimp only [W3, W2, W1]
  after_results_simp <;> rfl

set_option maxHeartbeats 4000000 in
theorem W3_arg3 (c : Dev nD) : W3 m ρ c (Proc.devRef .tc main_arg3) = (m ((c : Thread nD τ).loc main_arg3)) := by
  dsimp only [W3, W2, W1]
  after_results_simp <;> rfl

set_option maxHeartbeats 4000000 in
theorem W3_arg4 (c : Dev nD) : W3 m ρ c (Proc.devRef .tc main_arg4) = (m ((c : Thread nD τ).loc main_arg4)) := by
  dsimp only [W3, W2, W1]
  after_results_simp <;> rfl

set_option maxHeartbeats 4000000 in
theorem W3_arg5 (c : Dev nD) : W3 m ρ c (Proc.devRef .tc main_arg5) = (m ((c : Thread nD τ).loc main_arg5)) := by
  dsimp only [W3, W2, W1]
  after_results_simp <;> rfl

set_option maxHeartbeats 4000000 in
theorem W3_arg6 (c : Dev nD) : W3 m ρ c (Proc.devRef .tc main_arg6) = (m ((c : Thread nD τ).loc main_arg6)) := by
  dsimp only [W3, W2, W1]
  after_results_simp <;> rfl

set_option maxHeartbeats 4000000 in
theorem W3_arg7 (c : Dev nD) : W3 m ρ c (Proc.devRef .tc main_arg7) = (m ((c : Thread nD τ).loc main_arg7)) := by
  dsimp only [W3, W2, W1]
  after_results_simp <;> rfl

set_option maxHeartbeats 4000000 in
theorem W3_arg8 (c : Dev nD) : W3 m ρ c (Proc.devRef .tc main_arg8) = (m ((c : Thread nD τ).loc main_arg8)) := by
  dsimp only [W3, W2, W1]
  after_results_simp <;> rfl

/-! ## Across the first kernel: it writes only its output -/

theorem W4_src (c : Dev nD) : W4 m ρ c (Proc.devRef .tc main_v5) = val_main_v4 (F := F) (m ((c : Thread nD τ).loc main_arg1)) :=
  (W4_of_ne m ρ c main_v5 (by decide)).trans (W3_src m ρ c)

theorem W4_dst (c : Dev nD) : W4 m ρ c (Proc.devRef .tc main_v6) = val_main_v7 (F := F) (m ((c : Thread nD τ).loc main_arg1)) :=
  (W4_of_ne m ρ c main_v6 (by decide)).trans (W3_dst m ρ c)

theorem W4_norm (c : Dev nD) : W4 m ρ c (Proc.devRef .tc main_v30) = val_main_v31 (F := F) (m ((c : Thread nD τ).loc main_arg1)) :=
  (W4_of_ne m ρ c main_v30 (by decide)).trans (W3_norm m ρ c)

theorem W4_arg2 (c : Dev nD) : W4 m ρ c (Proc.devRef .tc main_arg2) = (m ((c : Thread nD τ).loc main_arg2)) :=
  (W4_of_ne m ρ c main_arg2 (by decide)).trans (W3_arg2 m ρ c)

theorem W4_arg4 (c : Dev nD) : W4 m ρ c (Proc.devRef .tc main_arg4) = (m ((c : Thread nD τ).loc main_arg4)) :=
  (W4_of_ne m ρ c main_arg4 (by decide)).trans (W3_arg4 m ρ c)

theorem W4_arg5 (c : Dev nD) : W4 m ρ c (Proc.devRef .tc main_arg5) = (m ((c : Thread nD τ).loc main_arg5)) :=
  (W4_of_ne m ρ c main_arg5 (by decide)).trans (W3_arg5 m ρ c)

theorem W4_arg6 (c : Dev nD) : W4 m ρ c (Proc.devRef .tc main_arg6) = (m ((c : Thread nD τ).loc main_arg6)) :=
  (W4_of_ne m ρ c main_arg6 (by decide)).trans (W3_arg6 m ρ c)

theorem W4_arg7 (c : Dev nD) : W4 m ρ c (Proc.devRef .tc main_arg7) = (m ((c : Thread nD τ).loc main_arg7)) :=
  (W4_of_ne m ρ c main_arg7 (by decide)).trans (W3_arg7 m ρ c)

theorem W4_arg8 (c : Dev nD) : W4 m ρ c (Proc.devRef .tc main_arg8) = (m ((c : Thread nD τ).loc main_arg8)) :=
  (W4_of_ne m ρ c main_arg8 (by decide)).trans (W3_arg8 m ρ c)

/-! ## The first aggregation and the first bias row -/

set_option maxHeartbeats 4000000 in
/-- The aggregate of whatever the first kernel left. -/
theorem W5_agg (c : Dev nD) :
    W5 m ρ c (Proc.devRef .tc main_v44) = Result.aggA (F := F) (W4 m ρ c (Proc.devRef .tc main_v31)) (m ((c : Thread nD τ).loc main_arg1)) := by
  show StableHlo.after hostOps1 (W4 m ρ c) _ = _
  after_results_simp
  rw [W4_src m ρ c, W4_dst m ρ c, W4_norm m ρ c]
  rfl

set_option maxHeartbeats 4000000 in
/-- The first bias as a row. -/
theorem W5_b1 (c : Dev nD) :
    W5 m ρ c (Proc.devRef .tc main_v45) = shapeCast S1x128 (m ((c : Thread nD τ).loc main_arg4)) shapeCasts_S128_S1x128 := by
  show StableHlo.after hostOps1 (W4 m ρ c) _ = _
  after_results_simp
  rw [W4_arg4 m ρ c]
  rfl

theorem W5_src (c : Dev nD) : W5 m ρ c (Proc.devRef .tc main_v5) = val_main_v4 (F := F) (m ((c : Thread nD τ).loc main_arg1)) :=
  (show StableHlo.after hostOps1 (W4 m ρ c) (Proc.devRef .tc main_v5) = W4 m ρ c (Proc.devRef .tc main_v5) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W4_src m ρ c)

theorem W5_dst (c : Dev nD) : W5 m ρ c (Proc.devRef .tc main_v6) = val_main_v7 (F := F) (m ((c : Thread nD τ).loc main_arg1)) :=
  (show StableHlo.after hostOps1 (W4 m ρ c) (Proc.devRef .tc main_v6) = W4 m ρ c (Proc.devRef .tc main_v6) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W4_dst m ρ c)

theorem W5_norm (c : Dev nD) : W5 m ρ c (Proc.devRef .tc main_v30) = val_main_v31 (F := F) (m ((c : Thread nD τ).loc main_arg1)) :=
  (show StableHlo.after hostOps1 (W4 m ρ c) (Proc.devRef .tc main_v30) = W4 m ρ c (Proc.devRef .tc main_v30) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W4_norm m ρ c)

theorem W5_arg2 (c : Dev nD) : W5 m ρ c (Proc.devRef .tc main_arg2) = (m ((c : Thread nD τ).loc main_arg2)) :=
  (show StableHlo.after hostOps1 (W4 m ρ c) (Proc.devRef .tc main_arg2) = W4 m ρ c (Proc.devRef .tc main_arg2) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W4_arg2 m ρ c)

theorem W5_arg5 (c : Dev nD) : W5 m ρ c (Proc.devRef .tc main_arg5) = (m ((c : Thread nD τ).loc main_arg5)) :=
  (show StableHlo.after hostOps1 (W4 m ρ c) (Proc.devRef .tc main_arg5) = W4 m ρ c (Proc.devRef .tc main_arg5) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W4_arg5 m ρ c)

theorem W5_arg6 (c : Dev nD) : W5 m ρ c (Proc.devRef .tc main_arg6) = (m ((c : Thread nD τ).loc main_arg6)) :=
  (show StableHlo.after hostOps1 (W4 m ρ c) (Proc.devRef .tc main_arg6) = W4 m ρ c (Proc.devRef .tc main_arg6) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W4_arg6 m ρ c)

theorem W5_arg7 (c : Dev nD) : W5 m ρ c (Proc.devRef .tc main_arg7) = (m ((c : Thread nD τ).loc main_arg7)) :=
  (show StableHlo.after hostOps1 (W4 m ρ c) (Proc.devRef .tc main_arg7) = W4 m ρ c (Proc.devRef .tc main_arg7) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W4_arg7 m ρ c)

theorem W5_arg8 (c : Dev nD) : W5 m ρ c (Proc.devRef .tc main_arg8) = (m ((c : Thread nD τ).loc main_arg8)) :=
  (show StableHlo.after hostOps1 (W4 m ρ c) (Proc.devRef .tc main_arg8) = W4 m ρ c (Proc.devRef .tc main_arg8) from
    StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W4_arg8 m ρ c)

/-! ## Across the second kernel -/

theorem W6_src (c : Dev nD) : W6 m ρ c (Proc.devRef .tc main_v5) = val_main_v4 (F := F) (m ((c : Thread nD τ).loc main_arg1)) :=
  (W6_of_ne m ρ c main_v5 (by decide)).trans (W5_src m ρ c)

theorem W6_dst (c : Dev nD) : W6 m ρ c (Proc.devRef .tc main_v6) = val_main_v7 (F := F) (m ((c : Thread nD τ).loc main_arg1)) :=
  (W6_of_ne m ρ c main_v6 (by decide)).trans (W5_dst m ρ c)

theorem W6_norm (c : Dev nD) : W6 m ρ c (Proc.devRef .tc main_v30) = val_main_v31 (F := F) (m ((c : Thread nD τ).loc main_arg1)) :=
  (W6_of_ne m ρ c main_v30 (by decide)).trans (W5_norm m ρ c)

theorem W6_arg2 (c : Dev nD) : W6 m ρ c (Proc.devRef .tc main_arg2) = (m ((c : Thread nD τ).loc main_arg2)) :=
  (W6_of_ne m ρ c main_arg2 (by decide)).trans (W5_arg2 m ρ c)

theorem W6_arg6 (c : Dev nD) : W6 m ρ c (Proc.devRef .tc main_arg6) = (m ((c : Thread nD τ).loc main_arg6)) :=
  (W6_of_ne m ρ c main_arg6 (by decide)).trans (W5_arg6 m ρ c)

theorem W6_arg7 (c : Dev nD) : W6 m ρ c (Proc.devRef .tc main_arg7) = (m ((c : Thread nD τ).loc main_arg7)) :=
  (W6_of_ne m ρ c main_arg7 (by decide)).trans (W5_arg7 m ρ c)

theorem W6_arg8 (c : Dev nD) : W6 m ρ c (Proc.devRef .tc main_arg8) = (m ((c : Thread nD τ).loc main_arg8)) :=
  (W6_of_ne m ρ c main_arg8 (by decide)).trans (W5_arg8 m ρ c)

/-! ## The second aggregation, the membership table and the second bias row -/

set_option maxHeartbeats 4000000 in
/-- The aggregate of whatever the second kernel left. -/
theorem W7_agg (c : Dev nD) :
    W7 m ρ c (Proc.devRef .tc main_v59) = Result.aggB (F := F) (W6 m ρ c (Proc.devRef .tc main_v46)) (m ((c : Thread nD τ).loc main_arg1)) := by
  show StableHlo.after hostOps2 (W6 m ρ c) _ = _
  after_results_simp
  rw [W6_src m ρ c, W6_dst m ρ c, W6_norm m ρ c]
  rfl

set_option maxHeartbeats 4000000 in
/-- The membership table of the graph ids. -/
theorem W7_oh (c : Dev nD) :
    W7 m ρ c (Proc.devRef .tc main_v66) = Result.onehot (F := F) (m ((c : Thread nD τ).loc main_arg2)) := by
  show StableHlo.after hostOps2 (W6 m ρ c) _ = _
  after_results_simp
  rw [W6_arg2 m ρ c]
  rfl

set_option maxHeartbeats 4000000 in
/-- The second bias as a row. -/
theorem W7_b2 (c : Dev nD) :
    W7 m ρ c (Proc.devRef .tc main_v67) = shapeCast S1x128 (m ((c : Thread nD τ).loc main_arg6)) shapeCasts_S128_S1x128 := by
  show StableHlo.after hostOps2 (W6 m ρ c) _ = _
  after_results_simp
  rw [W6_arg6 m ρ c]
  rfl

theorem W7_arg7 (c : Dev nD) : W7 m ρ c (Proc.devRef .tc main_arg7) = (m ((c : Thread nD τ).loc main_arg7)) :=
  (show StableHlo.after hostOps2 (W6 m ρ c) (Proc.devRef .tc main_arg7) = W6 m ρ c (Proc.devRef .tc main_arg7) from
    StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W6_arg7 m ρ c)

theorem W7_arg8 (c : Dev nD) : W7 m ρ c (Proc.devRef .tc main_arg8) = (m ((c : Thread nD τ).loc main_arg8)) :=
  (show StableHlo.after hostOps2 (W6 m ρ c) (Proc.devRef .tc main_arg8) = W6 m ρ c (Proc.devRef .tc main_arg8) from
    StableHlo.after_of_forall_not_mem _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (W6_arg8 m ρ c)

/-! ## Across the third kernel, and the last stretch -/

theorem W8_arg7 (c : Dev nD) : W8 m ρ c (Proc.devRef .tc main_arg7) = (m ((c : Thread nD τ).loc main_arg7)) :=
  (W8_of_ne m ρ c main_arg7 (by decide)).trans (W7_arg7 m ρ c)

theorem W8_arg8 (c : Dev nD) : W8 m ρ c (Proc.devRef .tc main_arg8) = (m ((c : Thread nD τ).loc main_arg8)) :=
  (W8_of_ne m ρ c main_arg8 (by decide)).trans (W7_arg8 m ρ c)

set_option maxHeartbeats 4000000 in
/-- The result: the mean and the affine map of whatever the third kernel left. -/
theorem W9_out (c : Dev nD) :
    W9 m ρ c (Proc.devRef .tc main_v76)
      = Result.tail (F := F) (W8 m ρ c (Proc.devRef .tc main_v68_0)) (W8 m ρ c (Proc.devRef .tc main_v68_1)) (m ((c : Thread nD τ).loc main_arg7)) (m ((c : Thread nD τ).loc main_arg8)) := by
  show StableHlo.after hostOps3 (W8 m ρ c) _ = _
  after_results_simp
  rw [W8_arg7 m ρ c, W8_arg8 m ρ c]
  rfl

end AnyFloats

/-! ## Over the extended reals: the three kernels' outputs -/

variable (m : (ℓ : Loc nD τ sig) → Buf (Elt Ideal) ℓ) (ρ : Dev nD → PrngReg)

/-- After the first kernel: the features times the first weight. -/
theorem W4_t1 (c : Dev nD) :
    W4 (F := Ideal) m ρ c (Proc.devRef .tc main_v31) = KSpec.mm (m ((c : Thread nD τ).loc main_arg0)) (m ((c : Thread nD τ).loc main_arg3)) :=
  (W4_arr m ρ c 2).trans ((Region0.final (V3 m ρ) c).trans
    (congrArg₂ KSpec.mm (W3_arg0 m ρ c) (W3_arg3 m ρ c)))

/-- After the second kernel: the first layer's activation times the second weight. -/
theorem W6_t2 (c : Dev nD) :
    W6 (F := Ideal) m ρ c (Proc.devRef .tc main_v46)
      = KSpec.mm (KSpec.hid (Result.aggA (F := Ideal) (KSpec.mm (m ((c : Thread nD τ).loc main_arg0)) (m ((c : Thread nD τ).loc main_arg3))) (m ((c : Thread nD τ).loc main_arg1)))
          (shapeCast S1x128 (m ((c : Thread nD τ).loc main_arg4)) shapeCasts_S128_S1x128)) (m ((c : Thread nD τ).loc main_arg5)) :=
  (W6_arr m ρ c 3).trans ((Region1.final (V5 m ρ) c).trans
    (congrArg₂ KSpec.mm
      (congrArg₂ KSpec.hid ((W5_agg m ρ c).trans (congrArg (fun t => Result.aggA (F := Ideal) t (m ((c : Thread nD τ).loc main_arg1))) (W4_t1 m ρ c))) (W5_b1 m ρ c))
      (W5_arg5 m ρ c)))

/-- After the third kernel: the pooled sums. -/
theorem W8_sums (c : Dev nD) :
    W8 (F := Ideal) m ρ c (Proc.devRef .tc main_v68_0)
      = KSpec.sums (Result.aggB (F := Ideal) (KSpec.mm (KSpec.hid (Result.aggA (F := Ideal) (KSpec.mm (m ((c : Thread nD τ).loc main_arg0)) (m ((c : Thread nD τ).loc main_arg3))) (m ((c : Thread nD τ).loc main_arg1)))
          (shapeCast S1x128 (m ((c : Thread nD τ).loc main_arg4)) shapeCasts_S128_S1x128)) (m ((c : Thread nD τ).loc main_arg5))) (m ((c : Thread nD τ).loc main_arg1)))
          (shapeCast S1x128 (m ((c : Thread nD τ).loc main_arg6)) shapeCasts_S128_S1x128) (Result.onehot (F := Ideal) (m ((c : Thread nD τ).loc main_arg2))) :=
  (W8_arr m ρ c 3).trans ((Region2.final_sums (V7 m ρ) c).trans (by
    show KSpec.sums (W7 m ρ c (Proc.devRef .tc main_v59)) (W7 m ρ c (Proc.devRef .tc main_v67)) (W7 m ρ c (Proc.devRef .tc main_v66)) = _
    rw [W7_agg m ρ c, W7_b2 m ρ c, W7_oh m ρ c, W6_t2 m ρ c]))

/-- After the third kernel: the graph sizes. -/
theorem W8_cnt (c : Dev nD) :
    W8 (F := Ideal) m ρ c (Proc.devRef .tc main_v68_1) = KSpec.cnt (Result.onehot (F := Ideal) (m ((c : Thread nD τ).loc main_arg2))) :=
  (W8_arr m ρ c 4).trans ((Region2.final_cnt (V7 m ρ) c).trans (by
    show KSpec.cnt (W7 m ρ c (Proc.devRef .tc main_v66)) = _
    rw [W7_oh m ρ c]))

/-- The result buffer at the last boundary is the whole computation of the launch contents of the arguments. -/
theorem kernel_value (c : Dev nD) :
    W9 (F := Ideal) m ρ c (Proc.devRef .tc main_v76)
      = Result.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [W9_out m ρ c, W8_sums m ρ c, W8_cnt m ρ c]
  rfl

end Cert.KernelIdeal.KHost

end
-- ==== Proof.PoolScatter.lean ====
/-
  The reference's two accumulating scatters along the graph ids, read at an entry over the extended reals.

  The scatter adds row `n` of the update into row `batch n` (the id read signed; a row whose id is outside
  `0 … 127` lands nowhere and contributes nothing), so entry `(g, d)` of the result is the sum over the nodes `n`
  whose id is `g` of the update's entry `(n, d)`. The membership table has 1 at `(n, g)` exactly for those nodes and
  0 elsewhere, and `0 * v = 0`, `1 * v = v` for every extended real `v`: the same sum, written over all nodes.
-/
import proofs.«428602_j7928509628453_1_alg».proof.Proof.RefRead
import proofs.«428602_j7928509628453_1_alg».proof.Proof.Result
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.PoolScatter

open Cert.ReferenceIdeal Cert.ReferenceIdeal.Gen Cert.ReferenceIdeal.Read
open Idealize.ShloMosaic Idealize.ShloMosaic.TcCoe Idealize.ShloMosaic.ValueIdx

/-- The word compare for equality, read unsigned: 1 when the words are equal, else 0. -/
theorem cmpi_eq_toNat {w : Nat} (a b : BitVec w) : (IntOp.cmpi .eq a b).toNat = if a = b then 1 else 0 := by
  unfold IntOp.cmpi
  by_cases h : a = b
  · subst h; simp
  · simp [h]

/-- The membership table at an entry: 1 when node `n`'s id is `g`, else 0. -/
theorem onehot_apply (batch : S50000.Idx → BitVec 32) (n : Fin 50000) (g : Fin 128) :
    Cert.KernelIdeal.Result.onehot (F := Ideal) batch (ix2 n g)
      = if batch (ix1 n) = BitVec.ofNat 32 g.val then (1 : EReal) else 0 := by
  unfold Cert.KernelIdeal.Result.onehot
  show FloatOps.uitofp (F := Ideal) .bf16 (IntOp.cmpi .eq _ _) = _
  rw [broadcastInDim_apply _ _ _ (ix2 n g) (ix2 n (0 : Fin 1)) (fun a => match a with
      | ⟨0, _⟩ => by show n.val = if (50000 : Nat) = 1 then 0 else n.val; rw [if_neg (by decide)]
      | ⟨1, _⟩ => by show (0 : Nat) = if (1 : Nat) = 1 then 0 else g.val; rw [if_pos rfl]),
    broadcastInDim_apply _ _ batch (ix2 n (0 : Fin 1)) (ix1 n) (fun a => match a with
      | ⟨0, _⟩ => by show n.val = if (50000 : Nat) = 1 then 0 else n.val; rw [if_neg (by decide)]),
    broadcastInDim_apply _ _ _ (ix2 n g) (ix2 (0 : Fin 1) g) (fun a => match a with
      | ⟨0, _⟩ => by show (0 : Nat) = if (1 : Nat) = 1 then 0 else n.val; rw [if_pos rfl]
      | ⟨1, _⟩ => by show g.val = if (128 : Nat) = 1 then 0 else g.val; rw [if_neg (by decide)]),
    broadcastInDim_apply _ _ _ (ix2 (0 : Fin 1) g) (ix1 g) (fun a => match a with
      | ⟨0, _⟩ => by show g.val = if (128 : Nat) = 1 then 0 else g.val; rw [if_neg (by decide)])]
  show (((IntOp.cmpi .eq (batch (ix1 n)) (BitVec.ofNat 32 g.val)).toNat : ℝ) : EReal) = _
  rw [cmpi_eq_toNat]
  split <;> simp

/-- An update lands at `i` exactly when, on every axis, its window's start plus its window coordinate is `i`'s
    coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · next hh =>
      have h' := Option.some.inj h
      intro a
      rw [← h']
      show _ = ((Int.toNat _ : Nat) : Int)
      rw [Int.toNat_of_nonneg (hh a).1]
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a
    apply Fin.ext
    show Int.toNat _ = _
    rw [h a]; exact Int.toNat_natCast _

/-- For the update at `(n, d')` of the row scatter, the window starts on axis 0 at node `n`'s id read signed. -/
theorem start2_0 (idx : IVec S50000x1 32) (n : Fin 50000) (d' : Fin 128) :
    scatter_S128x128_S50000x1_S50000x128_1_0_0_1.start (ix2 n d') idx 0 = (idx (ix2 n (0 : Fin 1))).toInt := by
  unfold ScatterDims.start
  rw [dif_pos (show (0 : Fin S128x128.rank) ∈ scatter_S128x128_S50000x1_S50000x128_1_0_0_1.scatterDimsToOperandDims by decide)]
  congr 2
  funext b
  match b with
  | ⟨0, _⟩ => rfl
  | ⟨1, _⟩ => rfl

/-- … and on axis 1, which the index vector does not name, at 0. -/
theorem start2_1 (idx : IVec S50000x1 32) (n : Fin 50000) (d' : Fin 128) :
    scatter_S128x128_S50000x1_S50000x128_1_0_0_1.start (ix2 n d') idx 1 = 0 := by
  unfold ScatterDims.start
  rw [dif_neg (show ¬ (1 : Fin S128x128.rank) ∈ scatter_S128x128_S50000x1_S50000x128_1_0_0_1.scatterDimsToOperandDims by decide)]

/-- The window coordinate of the update at `(n, d')` is 0 on the inserted axis 0 … -/
theorem window2_0 (n : Fin 50000) (d' : Fin 128) :
    scatter_S128x128_S50000x1_S50000x128_1_0_0_1.window (ix2 n d') 0 = 0 := by
  unfold ScatterDims.window
  rw [dif_neg (show ¬ (0 : Fin S128x128.rank) ∈ scatter_S128x128_S50000x1_S50000x128_1_0_0_1.sKept by decide)]

/-- … and the column `d'` on axis 1. -/
theorem window2_1 (n : Fin 50000) (d' : Fin 128) :
    scatter_S128x128_S50000x1_S50000x128_1_0_0_1.window (ix2 n d') 1 = d'.val := by
  unfold ScatterDims.window
  rw [dif_pos (show (1 : Fin S128x128.rank) ∈ scatter_S128x128_S50000x1_S50000x128_1_0_0_1.sKept by decide)]
  rfl

/-- A 32-bit word reads signed as `g < 128` exactly when it is the word of `g`. -/
theorem toInt_eq_iff (x : BitVec 32) (g : Nat) (hg : g < 128) : x.toInt = (g : Int) ↔ x = BitVec.ofNat 32 g := by
  constructor
  · intro h
    apply BitVec.eq_of_toNat_eq
    rw [BitVec.toNat_ofNat]
    have := x.isLt
    rw [BitVec.toInt_eq_toNat_cond] at h
    split at h <;> omega
  · intro h; subst h
    rw [BitVec.toInt_eq_toNat_cond, BitVec.toNat_ofNat]
    split <;> omega

/-- The ids as a column: its entry `(n, 0)` is node `n`'s id. -/
theorem ids_col (batch : S50000.Idx → BitVec 32) (n : Fin 50000) :
    val_main_v99 (F := Ideal) batch (ix2 n (0 : Fin 1)) = batch (ix1 n) := by
  rw [val_main_v99_apply]
  congr 1
  funext a
  match a with
  | ⟨0, _⟩ => rfl

/-- The update at `(n, b)` of the row scatter lands at `(g, d)` exactly when node `n`'s id is `g` and `b = d`. -/
theorem lands2_iff (batch : S50000.Idx → BitVec 32) (n : Fin 50000) (b g d : Fin 128) :
    scatter_S128x128_S50000x1_S50000x128_1_0_0_1.resultIdx? (ix2 n b) (val_main_v99 (F := Ideal) batch) = some (ix2 g d)
      ↔ batch (ix1 n) = BitVec.ofNat 32 g.val ∧ b = d := by
  rw [resultIdx?_eq_some_iff]
  constructor
  · intro h
    have h0 := h 0
    have h1 := h 1
    rw [start2_0, window2_0, ids_col] at h0
    rw [start2_1, window2_1] at h1
    refine ⟨(toInt_eq_iff _ g.val g.isLt).mp ?_, Fin.ext ?_⟩
    · simpa using h0
    · have h1' : ((b.val : Nat) : Int) = (d.val : Int) := by simpa using h1
      exact_mod_cast h1'
  · rintro ⟨hb, rfl⟩ a
    match a with
    | ⟨0, _⟩ =>
      show scatter_S128x128_S50000x1_S50000x128_1_0_0_1.start (ix2 n b) _ 0 + ((scatter_S128x128_S50000x1_S50000x128_1_0_0_1.window (ix2 n b) 0 : Nat) : Int) = (g.val : Int)
      rw [start2_0, window2_0, ids_col, (toInt_eq_iff _ g.val g.isLt).mpr hb]; simp
    | ⟨1, _⟩ =>
      show scatter_S128x128_S50000x1_S50000x128_1_0_0_1.start (ix2 n b) _ 1 + ((scatter_S128x128_S50000x1_S50000x128_1_0_0_1.window (ix2 n b) 1 : Nat) : Int) = (b.val : Int)
      rw [start2_1, window2_1]; simp

/-- A sum over the indices of a vector is the sum over its positions. -/
theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := ix1, invFun := fun i => i 0, left_inv := fun _ => rfl, right_inv := fun i => (eq_ix1 i).symm }
  exact (Equiv.sum_comp e f).symm

/-- The binary32 pattern `0x3F800000` is the extended real one. -/
theorem ofBits_one_f32' : Ideal.ofBits .f32 0x3F800000#32 = 1 := by
  rw [show (1 : EReal) = ((1 : ℝ) : EReal) by norm_cast]
  simp [Ideal.ofBits, Ideal.ieee, -EReal.coe_mul]; norm_num

/-- For the update at `n` of the counting scatter, the window starts at node `n`'s id read signed. -/
theorem start1_0 (idx : IVec S50000x1 32) (n : Fin 50000) :
    scatter_S128_S50000x1_S50000_n_0_0_1.start (ix1 n) idx 0 = (idx (ix2 n (0 : Fin 1))).toInt := by
  unfold ScatterDims.start
  rw [dif_pos (show (0 : Fin S128.rank) ∈ scatter_S128_S50000x1_S50000_n_0_0_1.scatterDimsToOperandDims by decide)]
  congr 2
  funext b
  match b with
  | ⟨0, _⟩ => rfl
  | ⟨1, _⟩ => rfl

/-- The counting scatter's update has no window axis: its window coordinate is 0. -/
theorem window1_0 (n : Fin 50000) : scatter_S128_S50000x1_S50000_n_0_0_1.window (ix1 n) 0 = 0 := by
  unfold ScatterDims.window
  rw [dif_neg (show ¬ (0 : Fin S128.rank) ∈ scatter_S128_S50000x1_S50000_n_0_0_1.sKept by decide)]

/-- The ids as a column (the counting scatter's copy): entry `(n, 0)` is node `n`'s id. -/
theorem ids_col' (batch : S50000.Idx → BitVec 32) (n : Fin 50000) :
    val_main_v103 (F := Ideal) batch (ix2 n (0 : Fin 1)) = batch (ix1 n) := by
  rw [val_main_v103_apply]
  congr 1
  funext a
  match a with
  | ⟨0, _⟩ => rfl

/-- The update at `n` of the counting scatter lands at `g` exactly when node `n`'s id is `g`. -/
theorem lands1_iff (batch : S50000.Idx → BitVec 32) (n : Fin 50000) (g : Fin 128) :
    scatter_S128_S50000x1_S50000_n_0_0_1.resultIdx? (ix1 n) (val_main_v103 (F := Ideal) batch) = some (ix1 g)
      ↔ batch (ix1 n) = BitVec.ofNat 32 g.val := by
  rw [resultIdx?_eq_some_iff]
  constructor
  · intro h
    have h0 := h 0
    rw [start1_0, window1_0, ids_col'] at h0
    exact (toInt_eq_iff _ g.val g.isLt).mp (by simpa using h0)
  · intro hb a
    match a with
    | ⟨0, _⟩ =>
      show scatter_S128_S50000x1_S50000_n_0_0_1.start (ix1 n) _ 0 + ((scatter_S128_S50000x1_S50000_n_0_0_1.window (ix1 n) 0 : Nat) : Int) = (g.val : Int)
      rw [start1_0, window1_0, ids_col', (toInt_eq_iff _ g.val g.isLt).mpr hb]; simp

/-- The pooled sums: the scatter of the rows of `h` along the ids, at `(g, d)`, is the membership-weighted sum of
    column `d` over all nodes. -/
theorem pool_sums (h : S50000x128.Idx → EReal) (batch : S50000.Idx → BitVec 32) (g d : Fin 128) :
    (Host.scatterAdd (F := Ideal) (φ := .f32) scatter_S128x128_S50000x1_S50000x128_1_0_0_1 (val_main_v98 (F := Ideal))
        (val_main_v99 (F := Ideal) batch) h : S128x128.Idx → EReal) (ix2 g d)
      = ∑ n : Fin 50000, Cert.KernelIdeal.Result.onehot (F := Ideal) batch (ix2 n g) * h (ix2 n d) := by
  show Ideal.hostScatterAdd _ _ _ _ _ = _
  unfold Ideal.hostScatterAdd
  rw [val_main_v98_apply, val_main_cst_22_apply]
  show Ideal.ofBits .f32 0x00000000#32 + _ = _
  rw [Ideal.ofBits_zero_f32, zero_add, Finset.sum_filter, sum_idx2]
  refine Finset.sum_congr rfl (fun n _ => ?_)
  rw [onehot_apply]
  by_cases hb : batch (ix1 n) = BitVec.ofNat 32 g.val
  · rw [if_pos hb, one_mul, Finset.sum_eq_single d]
    · exact if_pos ((lands2_iff batch n d g d).mpr ⟨hb, rfl⟩)
    · intro b _ hbd
      exact if_neg (fun hl => hbd ((lands2_iff batch n b g d).mp hl).2)
    · intro hd
      exact absurd (Finset.mem_univ d) hd
  · rw [if_neg hb, zero_mul]
    exact Finset.sum_eq_zero (fun b _ => if_neg (fun hl => hb ((lands2_iff batch n b g d).mp hl).1))

/-- The graph sizes: the scatter of ones along the ids, at `g`, is the sum of the membership column `g`. -/
theorem pool_cnt (batch : S50000.Idx → BitVec 32) (g : Fin 128) :
    (Host.scatterAdd (F := Ideal) (φ := .f32) scatter_S128_S50000x1_S50000_n_0_0_1 (val_main_v102 (F := Ideal))
        (val_main_v103 (F := Ideal) batch) (val_main_v101 (F := Ideal)) : S128.Idx → EReal) (ix1 g)
      = ∑ n : Fin 50000, Cert.KernelIdeal.Result.onehot (F := Ideal) batch (ix2 n g) := by
  show Ideal.hostScatterAdd _ _ _ _ _ = _
  unfold Ideal.hostScatterAdd
  rw [val_main_v102_apply, val_main_cst_24_apply]
  show Ideal.ofBits .f32 0x00000000#32 + _ = _
  rw [Ideal.ofBits_zero_f32, zero_add, Finset.sum_filter, sum_idx1]
  refine Finset.sum_congr rfl (fun n _ => ?_)
  rw [onehot_apply, val_main_v101_apply, val_main_cst_23_apply]
  show (if _ then Ideal.ofBits .f32 0x3F800000#32 else 0) = _
  rw [ofBits_one_f32']
  by_cases hb : batch (ix1 n) = BitVec.ofNat 32 g.val
  · rw [if_pos hb, if_pos ((lands1_iff batch n g).mpr hb)]
  · rw [if_neg hb, if_neg (fun hl => hb ((lands1_iff batch n g).mp hl))]

end Cert.ReferenceIdeal.PoolScatter

end
-- ==== Proof.RefSide.lean ====
/-
  The reference program's result, as the run's stages compose it, is the one term `Result.result` of its arguments.
-/
import proofs.«428602_j7928509628453_1_alg».proof.Proof.RefRead
import proofs.«428602_j7928509628453_1_alg».proof.Proof.Result
import proofs.«428602_j7928509628453_1_alg».proof.Proof.PoolScatter
import Idealize.ShloMosaic.Lib.ValueIdx
import Idealize.ShloMosaic.Lib.ValueLayout
import Idealize.ShloMosaic.PureOps.Ideal.Laws

set_option maxRecDepth 16384

noncomputable section

namespace Cert.ReferenceIdeal.RefSide

open Cert.ReferenceIdeal Cert.ReferenceIdeal.Read Idealize.ShloMosaic Idealize.ShloMosaic.TcCoe Idealize.ShloMosaic.ValueIdx

/-- The first product: the reference's contraction of `x` with `W1` over the shared axis is the entrywise sum of products. -/
theorem v0_eq (x : (⟨S50000x128, .f32⟩ : BufTy).Contents (Elt Ideal)) (W1 : (⟨S128x128, .f32⟩ : BufTy).Contents (Elt Ideal)) :
    val_main_v0 (F := Ideal) x W1 = Cert.KernelIdeal.KSpec.mm x W1 := by
  funext i
  rw [val_main_v0_apply]
  unfold Cert.KernelIdeal.KSpec.mm Cert.KernelIdeal.KSpec.mmAt
  refine Finset.sum_congr rfl fun k _ => ?_
  have e1 : lidx_main_v0 i k = ix2 (i 0) k := funext fun a => Fin.ext (by match a with | ⟨0, _⟩ => rfl | ⟨1, _⟩ => rfl)
  have e2 : ridx_main_v0 i k = ix2 k (i 1) := funext fun a => Fin.ext (by match a with | ⟨0, _⟩ => rfl | ⟨1, _⟩ => rfl)
  rw [e1, e2]
  rfl

/-- The first layer's aggregate is the gather, the product with the edge weights and the accumulating scatter of the
    first product: the same operations on both sides, for any float family. -/
theorem v44_eq_gen {F : FTy → Type} [FloatOps F] (x : (⟨S50000x128, .f32⟩ : BufTy).Contents (Elt F)) (ei : (⟨S2x800000, .i32⟩ : BufTy).Contents (Elt F)) (W1 : (⟨S128x128, .f32⟩ : BufTy).Contents (Elt F)) :
    val_main_v44 (F := F) x ei W1 = Cert.KernelIdeal.Result.aggA (F := F) (val_main_v0 (F := F) x W1) ei := by
  unfold val_main_v44 val_main_v41 val_main_v38 Cert.KernelIdeal.Result.aggA
  rfl

/-- A bias row added to every row and the clamp at zero, entry by entry: `max (a + b, 0)`, whether the bias is
    spread over the rows or reshaped to one row and read at the column. -/
theorem hid_of_apply (a B z : (⟨S50000x128, .f32⟩ : BufTy).Contents (Elt Ideal)) (b : (⟨S128, .f32⟩ : BufTy).Contents (Elt Ideal))
    (h : S128.ShapeCasts S1x128) (hz : ∀ i, z i = 0) (hB : ∀ i : S50000x128.Idx, B i = b (ix1 (i 1 : Fin 128))) :
    maximumf (F := Ideal) (s := S50000x128) (φ := .f32) (addf (F := Ideal) (s := S50000x128) (φ := .f32) a B) z
      = Cert.KernelIdeal.KSpec.hid a (shapeCast S1x128 b h) := by
  funext i
  have hs : shapeCast S1x128 b h (ix2 (0 : Fin 1) (i 1 : Fin 128)) = b (ix1 (i 1 : Fin 128)) :=
    shapeCast_a_1a_apply b h 0 (i 1)
  have hi : a (ix2 (i 0) (i 1)) = a i := congrArg a (eq_ix2 i).symm
  show max (a i + B i) (z i) = max (a (ix2 (i 0) (i 1)) + shapeCast S1x128 b h (ix2 (0 : Fin 1) (i 1 : Fin 128))) 0
  rw [hs, hi, hz, hB]

/-- The first layer's activation: the aggregate plus the bias on every row, clamped at zero. -/
theorem v48_eq (x : (⟨S50000x128, .f32⟩ : BufTy).Contents (Elt Ideal)) (ei : (⟨S2x800000, .i32⟩ : BufTy).Contents (Elt Ideal)) (W1 : (⟨S128x128, .f32⟩ : BufTy).Contents (Elt Ideal)) (b1 : (⟨S128, .f32⟩ : BufTy).Contents (Elt Ideal)) (h : S128.ShapeCasts S1x128) :
    val_main_v48 (F := Ideal) x ei W1 b1
      = Cert.KernelIdeal.KSpec.hid (val_main_v44 (F := Ideal) x ei W1) (shapeCast S1x128 b1 h) := by
  unfold val_main_v48 val_main_v47
  refine hid_of_apply _ _ _ b1 h (fun i => ?_) (fun i => ?_)
  · rw [val_main_call1_v0_apply, val_main_call1_cst_apply]
    exact Ideal.ofBits_zero_f32
  · rw [val_main_v46_apply, val_main_v45_apply]
    exact congrArg b1 (funext fun a => Fin.ext (by match a with | ⟨0, _⟩ => rfl))

/-- The second product: the first layer's activation times `W2`, entrywise the sum of products. -/
theorem v49_eq (x : (⟨S50000x128, .f32⟩ : BufTy).Contents (Elt Ideal)) (ei : (⟨S2x800000, .i32⟩ : BufTy).Contents (Elt Ideal)) (W1 : (⟨S128x128, .f32⟩ : BufTy).Contents (Elt Ideal)) (b1 : (⟨S128, .f32⟩ : BufTy).Contents (Elt Ideal)) (W2 : (⟨S128x128, .f32⟩ : BufTy).Contents (Elt Ideal)) :
    val_main_v49 (F := Ideal) x ei W1 b1 W2 = Cert.KernelIdeal.KSpec.mm (val_main_v48 (F := Ideal) x ei W1 b1) W2 := by
  funext i
  rw [val_main_v49_apply]
  unfold Cert.KernelIdeal.KSpec.mm Cert.KernelIdeal.KSpec.mmAt
  refine Finset.sum_congr rfl fun k _ => ?_
  have e1 : lidx_main_v49 i k = ix2 (i 0) k := funext fun a => Fin.ext (by match a with | ⟨0, _⟩ => rfl | ⟨1, _⟩ => rfl)
  have e2 : ridx_main_v49 i k = ix2 k (i 1) := funext fun a => Fin.ext (by match a with | ⟨0, _⟩ => rfl | ⟨1, _⟩ => rfl)
  rw [e1, e2]
  rfl

/-- The second layer's aggregate is the same gather, product and accumulating scatter, of the second product. -/
theorem v93_eq_gen {F : FTy → Type} [FloatOps F] (x : (⟨S50000x128, .f32⟩ : BufTy).Contents (Elt F)) (ei : (⟨S2x800000, .i32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) :
    val_main_v93 (F := F) x ei W1 b1 W2 = Cert.KernelIdeal.Result.aggB (F := F) (val_main_v49 (F := F) x ei W1 b1 W2) ei := by
  unfold val_main_v93 val_main_v90 val_main_v87 Cert.KernelIdeal.Result.aggB
  rfl

/-- The second layer's activation. -/
theorem v97_eq (x : (⟨S50000x128, .f32⟩ : BufTy).Contents (Elt Ideal)) (ei : (⟨S2x800000, .i32⟩ : BufTy).Contents (Elt Ideal)) (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal)) (h : S128.ShapeCasts S1x128) :
    val_main_v97 (F := Ideal) x ei W1 b1 W2 b2
      = Cert.KernelIdeal.KSpec.hid (val_main_v93 (F := Ideal) x ei W1 b1 W2) (shapeCast S1x128 b2 h) := by
  unfold val_main_v97 val_main_v96
  refine hid_of_apply _ _ _ b2 h (fun i => ?_) (fun i => ?_)
  · rw [val_main_call3_v0_apply, val_main_call3_cst_apply]
    exact Ideal.ofBits_zero_f32
  · rw [val_main_v95_apply, val_main_v94_apply]
    exact congrArg b2 (funext fun a => Fin.ext (by match a with | ⟨0, _⟩ => rfl))

/-- The pooled sums: the accumulating scatter of the second activation's rows along the graph ids is, entry by entry,
    the membership-weighted sum over all nodes. -/
theorem v100_eq (x : (⟨S50000x128, .f32⟩ : BufTy).Contents (Elt Ideal)) (ei : (⟨S2x800000, .i32⟩ : BufTy).Contents (Elt Ideal)) (batch : (⟨S50000, .i32⟩ : BufTy).Contents (Elt Ideal)) (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal)) (h : S128.ShapeCasts S1x128) :
    val_main_v100 (F := Ideal) x ei batch W1 b1 W2 b2
      = Cert.KernelIdeal.KSpec.sums (val_main_v93 (F := Ideal) x ei W1 b1 W2) (shapeCast S1x128 b2 h)
          (Cert.KernelIdeal.Result.onehot (F := Ideal) batch) := by
  funext i
  obtain ⟨g, d, rfl⟩ : ∃ g d : Fin 128, i = ix2 g d := ⟨i 0, i 1, eq_ix2 i⟩
  unfold val_main_v100
  rw [PoolScatter.pool_sums, v97_eq x ei W1 b1 W2 b2 h]
  rfl

/-- The graph sizes: the accumulating scatter of ones along the graph ids is the sum of a membership column. -/
theorem v104_at (batch : (⟨S50000, .i32⟩ : BufTy).Contents (Elt Ideal)) (g : Fin 128) :
    val_main_v104 (F := Ideal) batch (ix1 g)
      = Cert.KernelIdeal.KSpec.cntAt (Cert.KernelIdeal.Result.onehot (F := Ideal) batch) g := by
  unfold val_main_v104
  rw [PoolScatter.pool_cnt]
  rfl

/-- The denominators: every entry of row `g` is the size of graph `g` clamped below at one, whether the clamp is taken
    on the vector of sizes and then spread, or on the column of sizes. -/
theorem v108_eq (batch : (⟨S50000, .i32⟩ : BufTy).Contents (Elt Ideal)) (h0 : S_.BroadcastsInDim S128x1 (![] : Fin 0 → Fin S128x1.rank))
    (h1 : S128x1.BroadcastsInDim S128x128 (![0, 1] : Fin 2 → Fin S128x128.rank)) :
    val_main_v108 (F := Ideal) batch
      = broadcastInDim S128x128 ![0, 1] h1
          (maximumf (F := Ideal) (s := S128x1) (φ := .f32)
            (Cert.KernelIdeal.KSpec.cnt (Cert.KernelIdeal.Result.onehot (F := Ideal) batch))
            (broadcastInDim S128x1 ![] h0 (constant (F := Ideal) S_ .f32 0x3F800000#32))) := by
  funext i
  rw [val_main_v108_apply]
  refine Eq.trans ?_ (broadcastInDim_apply _ h1 _ i (idx_main_v108 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])).symm
  rw [val_main_v107_apply, val_main_v106_apply, val_main_v105_apply, val_main_cst_25_apply, maximumf_apply,
    broadcastInDim_apply _ h0 _ (idx_main_v108 i) (fun a => a.elim0) (fun a => a.elim0), constant_apply]
  have e : idx_main_v107 (idx_main_v108 i) = @ix1 128 (i 0) := funext fun a => Fin.ext (by match a with | ⟨0, _⟩ => rfl)
  rw [e, v104_at batch (i 0)]
  rfl

/-- The reference's last stage is the whole computation. -/
theorem ref_value (x : (⟨S50000x128, .f32⟩ : BufTy).Contents (Elt Ideal)) (ei : (⟨S2x800000, .i32⟩ : BufTy).Contents (Elt Ideal)) (batch : (⟨S50000, .i32⟩ : BufTy).Contents (Elt Ideal)) (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal)) (Wfc : (⟨S128x7, .f32⟩ : BufTy).Contents (Elt Ideal)) (bfc : (⟨S7, .f32⟩ : BufTy).Contents (Elt Ideal)) :
    val_main_v113 (F := Ideal) x ei batch W1 b1 W2 b2 Wfc bfc = Cert.KernelIdeal.Result.result x ei batch W1 b1 W2 b2 Wfc bfc := by
  unfold val_main_v113 val_main_v110 val_main_v109 val_main_v112 val_main_v111
  unfold Cert.KernelIdeal.Result.result Cert.KernelIdeal.Result.tail
  rw [v108_eq batch Cert.KernelIdeal.Facts₀.bcast_S_S128x1 Cert.KernelIdeal.Facts₀.bcast_S128x1_S128x128_0_1,
    v100_eq x ei batch W1 b1 W2 b2 Cert.KernelIdeal.Facts₀.shapeCasts_S128_S1x128,
    v93_eq_gen, v49_eq, v48_eq x ei W1 b1 Cert.KernelIdeal.Facts₀.shapeCasts_S128_S1x128, v44_eq_gen, v0_eq]
  rfl

end Cert.ReferenceIdeal.RefSide

end
-- ==== Proof.lean ====
/-
  A two-layer graph convolution with a mean pool, against its plain reference, over the extended reals.

  Both programs compute, from node features `x`, an edge array, graph ids `batch` and the layers' weights, the
  same value `Result.result`: per layer, the features times the weight, aggregated along the edges with the symmetric
  degree normalisation, plus the bias, clamped at zero; then each graph's rows summed, divided by the graph's size
  (at least one) and mapped affinely to seven outputs.

  The kernel program does the two dense products and the pool in three kernels. The products run over 25 blocks of
  2000 rows, and a row of a product depends only on that row of the left operand, so the blocks assemble the whole
  product. The pool multiplies the transposed 0/1 membership block (graph ids compared with 0 … 127) into the
  activation block and adds it into a resident accumulator over the 25 blocks: since `0 * v = 0` and `1 * v = v`
  for every extended real `v`, and sums of extended reals may be regrouped freely, that is the sum of the rows
  whose id is `g` — what the reference's accumulating scatter computes (an id outside 0 … 127 matches no column
  and is dropped by the scatter). No finiteness of the inputs is used. Everything between the kernels is the same host
  computation in both programs.

  The frames of the two kernel programs are the generated ones; the reference's frame is its run with the result
  dropped. The ideal pass rewrote nothing, so there is nothing to preserve.
-/
import proofs.«428602_j7928509628453_1_alg».proof.Defs
import proofs.«428602_j7928509628453_1_alg».proof.Proof.Gen.Kernel
import proofs.«428602_j7928509628453_1_alg».proof.Proof.Gen.Kernel.Frame
import proofs.«428602_j7928509628453_1_alg».proof.Proof.Gen.KernelIdeal
import proofs.«428602_j7928509628453_1_alg».proof.Proof.Gen.KernelIdeal.Frame
import proofs.«428602_j7928509628453_1_alg».proof.Proof.Gen.ReferenceIdeal
import proofs.«428602_j7928509628453_1_alg».proof.Proof.Gen.Pre_finite_inputs
import proofs.«428602_j7928509628453_1_alg».proof.Proof.RunValue
import proofs.«428602_j7928509628453_1_alg».proof.Proof.KHost
import proofs.«428602_j7928509628453_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Result.result` of the arguments, which agree. -/
theorem algebraic : Cert.algebraic_KernelIdeal_ReferenceIdeal := by
  intro m ρ m' ρ' _ hagree
  refine ⟨fun c => Cert.KernelIdeal.Result.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KHost.kernel_value m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v113_eq, Cert.ReferenceIdeal.RefSide.ref_value, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
